-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32000 : Shape := ⟨2, ![2048, 32000]⟩
abbrev S2048x20 : Shape := ⟨2, ![2048, 20]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel
  bcast_S_S2048x20 : S_.BroadcastsInDim S2048x20 (![] : Fin 0 → Fin S2048x20.rank)
  reducesTo_S2048x20_S_d0_1 : S2048x20.ReducesTo [0, 1] S_

variable [Facts]

def fn {F : FTy → Type} [FloatOps F] (main_arg0 : FVec F S2048x32000 .f32) (main_arg1 : IVec S2048x20 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  let main_cst_0 : FVec F S_ .f32 := constant S_ .f32 0x3F800000#32
  let main_v4 : FVec F S2048x32000 .f32 := broadcastInDim S2048x32000 ![] bcast_S_S2048x32000 main_cst_0
  let main_v5 : IVec S2048x32000 1 := cmpf .olt main_arg0 main_v4
  let main_c_1 : IVec S_ 1 := constantI S_ 1 1#1
  let main_v6 : IVec S_ 1 := (fun x v => Host.reduce IntOp.andi x v reducesTo_S2048x32000_S_d0_1 h_S_) main_v5 main_c_1
  let main_v7 : IVec S_ 1 := andi main_v3 main_v6
  let main_c_2 : IVec S_ 32 := constantI S_ 32 0#32
  let main_v8 : IVec S2048x20 32 := broadcastInDim S2048x20 ![] bcast_S_S2048x20 main_c_2
  let main_v9 : IVec S2048x20 1 := cmpi .sge main_arg1 main_v8
  let main_c_3 : IVec S_ 1 := constantI S_ 1 1#1
  let main_v10 : IVec S_ 1 := (fun x v => Host.reduce IntOp.andi x v reducesTo_S2048x20_S_d0_1 h_S_) main_v9 main_c_3
  let main_v11 : IVec S_ 1 := andi main_v7 main_v10
  let main_c_4 : IVec S_ 32 := constantI S_ 32 32000#32
  let main_v12 : IVec S2048x20 32 := broadcastInDim S2048x20 ![] bcast_S_S2048x20 main_c_4
  let main_v13 : IVec S2048x20 1 := cmpi .slt main_arg1 main_v12
  let main_c_5 : IVec S_ 1 := constantI S_ 1 1#1
  let main_v14 : IVec S_ 1 := (fun x v => Host.reduce IntOp.andi x v reducesTo_S2048x20_S_d0_1 h_S_) main_v13 main_c_5
  let main_v15 : IVec S_ 1 := andi main_v11 main_v14
  main_v15
-- ==== Kernel.lean ====
abbrev S2048x32000 : Shape := ⟨2, ![2048, 32000]⟩
abbrev S2048x20 : Shape := ⟨2, ![2048, 20]⟩
abbrev S2048x1 : Shape := ⟨2, ![2048, 1]⟩
abbrev S256x6400 : Shape := ⟨2, ![256, 6400]⟩
abbrev S256x1 : Shape := ⟨2, ![256, 1]⟩
abbrev S256 : Shape := ⟨1, ![256]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048 : Shape := ⟨1, ![2048]⟩
abbrev S2048x2 : Shape := ⟨2, ![2048, 2]⟩
abbrev S2048x3 : Shape := ⟨2, ![2048, 3]⟩
abbrev S2048x4 : Shape := ⟨2, ![2048, 4]⟩
abbrev S2048x5 : Shape := ⟨2, ![2048, 5]⟩
abbrev S2048x6 : Shape := ⟨2, ![2048, 6]⟩
abbrev S2048x7 : Shape := ⟨2, ![2048, 7]⟩
abbrev S2048x8 : Shape := ⟨2, ![2048, 8]⟩
abbrev S2048x9 : Shape := ⟨2, ![2048, 9]⟩
abbrev S2048x10 : Shape := ⟨2, ![2048, 10]⟩
abbrev S2048x11 : Shape := ⟨2, ![2048, 11]⟩
abbrev S2048x12 : Shape := ⟨2, ![2048, 12]⟩
abbrev S2048x13 : Shape := ⟨2, ![2048, 13]⟩
abbrev S2048x14 : Shape := ⟨2, ![2048, 14]⟩
abbrev S2048x15 : Shape := ⟨2, ![2048, 15]⟩
abbrev S2048x16 : Shape := ⟨2, ![2048, 16]⟩
abbrev S2048x17 : Shape := ⟨2, ![2048, 17]⟩
abbrev S2048x18 : Shape := ⟨2, ![2048, 18]⟩
abbrev S2048x19 : Shape := ⟨2, ![2048, 19]⟩

abbrev nBuf : Space → Nat
  | .hbm => 239
  | .vmem => 5
  | .smem => 0
  | _ => 0

abbrev hbmTy0_0 (i : Nat) : BufTy := match i % 128 with
  | 0 => ⟨S2048x32000, .f32⟩
  | 1 => ⟨S2048x20, .i32⟩
  | 2 => ⟨S2048x1, .f32⟩
  | 3 => ⟨S_, .f32⟩
  | 4 => ⟨S_, .f32⟩
  | 5 => ⟨S_, .i32⟩
  | 6 => ⟨S2048x20, .i32⟩
  | 7 => ⟨S2048x20, .i1⟩
  | 8 => ⟨S_, .i32⟩
  | 9 => ⟨S2048x20, .i32⟩
  | 10 => ⟨S2048x20, .i32⟩
  | 11 => ⟨S2048x20, .i32⟩
  | 12 => ⟨S2048x20x1, .i32⟩
  | 13 => ⟨S1, .i32⟩
  | 14 => ⟨S_, .i32⟩
  | 15 => ⟨S2048x20x1, .i32⟩
  | 16 => ⟨S2048x20x1, .i1⟩
  | 17 => ⟨S1x1x1, .i32⟩
  | 18 => ⟨S2048x20x1, .i32⟩
  | 19 => ⟨S2048x20x1, .i1⟩
  | 20 => ⟨S2048x20x1, .i1⟩
  | 21 => ⟨S_, .i1⟩
  | 22 => ⟨S2048x20, .i1⟩
  | 23 => ⟨S2048x20, .f32⟩
  | 24 => ⟨S_, .f32⟩
  | 25 => ⟨S2048x20, .f32⟩
  | 26 => ⟨S2048x20, .f32⟩
  | 27 => ⟨S_, .f32⟩
  | 28 => ⟨S_, .f32⟩
  | 29 => ⟨S_, .f32⟩
  | 30 => ⟨S2048x20, .f32⟩
  | 31 => ⟨S2048x20, .f32⟩
  | 32 => ⟨S_, .f32⟩
  | 33 => ⟨S2048x20, .f32⟩
  | 34 => ⟨S2048x20, .f32⟩
  | 35 => ⟨S_, .i1⟩
  | 36 => ⟨S2048x20, .i1⟩
  | 37 => ⟨S2048x1, .i32⟩
  | 38 => ⟨S2048x1, .i32⟩
  | 39 => ⟨S2048x1, .i1⟩
  | 40 => ⟨S_, .i1⟩
  | 41 => ⟨S2048, .i1⟩
  | 42 => ⟨S_, .i32⟩
  | 43 => ⟨S1, .i32⟩
  | 44 => ⟨S2048x20, .i1⟩
  | 45 => ⟨S2048x2, .i32⟩
  | 46 => ⟨S2048x1, .i32⟩
  | 47 => ⟨S2048x2, .i32⟩
  | 48 => ⟨S2048x2, .i1⟩
  | 49 => ⟨S_, .i1⟩
  | 50 => ⟨S2048, .i1⟩
  | 51 => ⟨S_, .i32⟩
  | 52 => ⟨S1, .i32⟩
  | 53 => ⟨S2048x20, .i1⟩
  | 54 => ⟨S2048x3, .i32⟩
  | 55 => ⟨S2048x1, .i32⟩
  | 56 => ⟨S2048x3, .i32⟩
  | 57 => ⟨S2048x3, .i1⟩
  | 58 => ⟨S_, .i1⟩
  | 59 => ⟨S2048, .i1⟩
  | 60 => ⟨S_, .i32⟩
  | 61 => ⟨S1, .i32⟩
  | 62 => ⟨S2048x20, .i1⟩
  | 63 => ⟨S2048x4, .i32⟩
  | 64 => ⟨S2048x1, .i32⟩
  | 65 => ⟨S2048x4, .i32⟩
  | 66 => ⟨S2048x4, .i1⟩
  | 67 => ⟨S_, .i1⟩
  | 68 => ⟨S2048, .i1⟩
  | 69 => ⟨S_, .i32⟩
  | 70 => ⟨S1, .i32⟩
  | 71 => ⟨S2048x20, .i1⟩
  | 72 => ⟨S2048x5, .i32⟩
  | 73 => ⟨S2048x1, .i32⟩
  | 74 => ⟨S2048x5, .i32⟩
  | 75 => ⟨S2048x5, .i1⟩
  | 76 => ⟨S_, .i1⟩
  | 77 => ⟨S2048, .i1⟩
  | 78 => ⟨S_, .i32⟩
  | 79 => ⟨S1, .i32⟩
  | 80 => ⟨S2048x20, .i1⟩
  | 81 => ⟨S2048x6, .i32⟩
  | 82 => ⟨S2048x1, .i32⟩
  | 83 => ⟨S2048x6, .i32⟩
  | 84 => ⟨S2048x6, .i1⟩
  | 85 => ⟨S_, .i1⟩
  | 86 => ⟨S2048, .i1⟩
  | 87 => ⟨S_, .i32⟩
  | 88 => ⟨S1, .i32⟩
  | 89 => ⟨S2048x20, .i1⟩
  | 90 => ⟨S2048x7, .i32⟩
  | 91 => ⟨S2048x1, .i32⟩
  | 92 => ⟨S2048x7, .i32⟩
  | 93 => ⟨S2048x7, .i1⟩
  | 94 => ⟨S_, .i1⟩
  | 95 => ⟨S2048, .i1⟩
  | 96 => ⟨S_, .i32⟩
  | 97 => ⟨S1, .i32⟩
  | 98 => ⟨S2048x20, .i1⟩
  | 99 => ⟨S2048x8, .i32⟩
  | 100 => ⟨S2048x1, .i32⟩
  | 101 => ⟨S2048x8, .i32⟩
  | 102 => ⟨S2048x8, .i1⟩
  | 103 => ⟨S_, .i1⟩
  | 104 => ⟨S2048, .i1⟩
  | 105 => ⟨S_, .i32⟩
  | 106 => ⟨S1, .i32⟩
  | 107 => ⟨S2048x20, .i1⟩
  | 108 => ⟨S2048x9, .i32⟩
  | 109 => ⟨S2048x1, .i32⟩
  | 110 => ⟨S2048x9, .i32⟩
  | 111 => ⟨S2048x9, .i1⟩
  | 112 => ⟨S_, .i1⟩
  | 113 => ⟨S2048, .i1⟩
  | 114 => ⟨S_, .i32⟩
  | 115 => ⟨S1, .i32⟩
  | 116 => ⟨S2048x20, .i1⟩
  | 117 => ⟨S2048x10, .i32⟩
  | 118 => ⟨S2048x1, .i32⟩
  | 119 => ⟨S2048x10, .i32⟩
  | 120 => ⟨S2048x10, .i1⟩
  | 121 => ⟨S_, .i1⟩
  | 122 => ⟨S2048, .i1⟩
  | 123 => ⟨S_, .i32⟩
  | 124 => ⟨S1, .i32⟩
  | 125 => ⟨S2048x20, .i1⟩
  | 126 => ⟨S2048x11, .i32⟩
  | 127 => ⟨S2048x1, .i32⟩
  | _ => ⟨S2048x32000, .f32⟩

abbrev hbmTy0_1 (i : Nat) : BufTy := match i % 128 with
  | 0 => ⟨S2048x11, .i32⟩
  | 1 => ⟨S2048x11, .i1⟩
  | 2 => ⟨S_, .i1⟩
  | 3 => ⟨S2048, .i1⟩
  | 4 => ⟨S_, .i32⟩
  | 5 => ⟨S1, .i32⟩
  | 6 => ⟨S2048x20, .i1⟩
  | 7 => ⟨S2048x12, .i32⟩
  | 8 => ⟨S2048x1, .i32⟩
  | 9 => ⟨S2048x12, .i32⟩
  | 10 => ⟨S2048x12, .i1⟩
  | 11 => ⟨S_, .i1⟩
  | 12 => ⟨S2048, .i1⟩
  | 13 => ⟨S_, .i32⟩
  | 14 => ⟨S1, .i32⟩
  | 15 => ⟨S2048x20, .i1⟩
  | 16 => ⟨S2048x13, .i32⟩
  | 17 => ⟨S2048x1, .i32⟩
  | 18 => ⟨S2048x13, .i32⟩
  | 19 => ⟨S2048x13, .i1⟩
  | 20 => ⟨S_, .i1⟩
  | 21 => ⟨S2048, .i1⟩
  | 22 => ⟨S_, .i32⟩
  | 23 => ⟨S1, .i32⟩
  | 24 => ⟨S2048x20, .i1⟩
  | 25 => ⟨S2048x14, .i32⟩
  | 26 => ⟨S2048x1, .i32⟩
  | 27 => ⟨S2048x14, .i32⟩
  | 28 => ⟨S2048x14, .i1⟩
  | 29 => ⟨S_, .i1⟩
  | 30 => ⟨S2048, .i1⟩
  | 31 => ⟨S_, .i32⟩
  | 32 => ⟨S1, .i32⟩
  | 33 => ⟨S2048x20, .i1⟩
  | 34 => ⟨S2048x15, .i32⟩
  | 35 => ⟨S2048x1, .i32⟩
  | 36 => ⟨S2048x15, .i32⟩
  | 37 => ⟨S2048x15, .i1⟩
  | 38 => ⟨S_, .i1⟩
  | 39 => ⟨S2048, .i1⟩
  | 40 => ⟨S_, .i32⟩
  | 41 => ⟨S1, .i32⟩
  | 42 => ⟨S2048x20, .i1⟩
  | 43 => ⟨S2048x16, .i32⟩
  | 44 => ⟨S2048x1, .i32⟩
  | 45 => ⟨S2048x16, .i32⟩
  | 46 => ⟨S2048x16, .i1⟩
  | 47 => ⟨S_, .i1⟩
  | 48 => ⟨S2048, .i1⟩
  | 49 => ⟨S_, .i32⟩
  | 50 => ⟨S1, .i32⟩
  | 51 => ⟨S2048x20, .i1⟩
  | 52 => ⟨S2048x17, .i32⟩
  | 53 => ⟨S2048x1, .i32⟩
  | 54 => ⟨S2048x17, .i32⟩
  | 55 => ⟨S2048x17, .i1⟩
  | 56 => ⟨S_, .i1⟩
  | 57 => ⟨S2048, .i1⟩
  | 58 => ⟨S_, .i32⟩
  | 59 => ⟨S1, .i32⟩
  | 60 => ⟨S2048x20, .i1⟩
  | 61 => ⟨S2048x18, .i32⟩
  | 62 => ⟨S2048x1, .i32⟩
  | 63 => ⟨S2048x18, .i32⟩
  | 64 => ⟨S2048x18, .i1⟩
  | 65 => ⟨S_, .i1⟩
  | 66 => ⟨S2048, .i1⟩
  | 67 => ⟨S_, .i32⟩
  | 68 => ⟨S1, .i32⟩
  | 69 => ⟨S2048x20, .i1⟩
  | 70 => ⟨S2048x19, .i32⟩
  | 71 => ⟨S2048x1, .i32⟩
  | 72 => ⟨S2048x19, .i32⟩
  | 73 => ⟨S2048x19, .i1⟩
  | 74 => ⟨S_, .i1⟩
  | 75 => ⟨S2048, .i1⟩
  | 76 => ⟨S_, .i32⟩
  | 77 => ⟨S1, .i32⟩
  | 78 => ⟨S2048x20, .i1⟩
  | 79 => ⟨S2048x20, .i1⟩
  | 80 => ⟨S2048x20, .f32⟩
  | 81 => ⟨S2048x20, .f32⟩
  | 82 => ⟨S_, .f32⟩
  | 83 => ⟨S2048x20, .f32⟩
  | 84 => ⟨S2048x20, .f32⟩
  | 85 => ⟨S2048x20, .f32⟩
  | 86 => ⟨S2048x20, .f32⟩
  | 87 => ⟨S_, .f32⟩
  | 88 => ⟨S2048x20, .f32⟩
  | 89 => ⟨S2048x20, .f32⟩
  | 90 => ⟨S_, .f32⟩
  | 91 => ⟨S2048x20, .f32⟩
  | 92 => ⟨S2048x20, .f32⟩
  | 93 => ⟨S_, .f32⟩
  | 94 => ⟨S2048x20, .f32⟩
  | 95 => ⟨S2048x20, .f32⟩
  | 96 => ⟨S2048x20, .f32⟩
  | 97 => ⟨S2048x20, .f32⟩
  | 98 => ⟨S2048x20, .f32⟩
  | 99 => ⟨S_, .f32⟩
  | 100 => ⟨S2048x20, .f32⟩
  | 101 => ⟨S2048x20, .f32⟩
  | 102 => ⟨S2048x20, .f32⟩
  | 103 => ⟨S2048x20, .f32⟩
  | 104 => ⟨S_, .f32⟩
  | 105 => ⟨S_, .f32⟩
  | 106 => ⟨S2048x20, .f32⟩
  | 107 => ⟨S2048x20, .f32⟩
  | 108 => ⟨S_, .f32⟩
  | 109 => ⟨S_, .f32⟩
  | 110 => ⟨S_, .f32⟩
  | _ => ⟨S2048x32000, .f32⟩

abbrev hbmTy (i : Nat) : BufTy := match i / 128 with
  | 0 => hbmTy0_0 i
  | 1 => hbmTy0_1 i
  | _ => ⟨S2048x32000, .f32⟩

abbrev bufTy : (tb : Table) → Fin (tcTables nBuf tb) → BufTy
  | .hbm, ⟨i, _⟩ => hbmTy i
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | _, _ => ⟨S2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_cst_0 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_c_2 : Ref sig .tc := ⟨.hbm, 40, rfl⟩
abbrev main_v8 : Ref sig .tc := ⟨.hbm, 41, rfl⟩
abbrev main_c_3 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_4 : Ref sig .tc := ⟨.hbm, 49, rfl⟩
abbrev main_v15 : Ref sig .tc := ⟨.hbm, 50, rfl⟩
abbrev main_c_5 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_6 : Ref sig .tc := ⟨.hbm, 58, rfl⟩
abbrev main_v22 : Ref sig .tc := ⟨.hbm, 59, rfl⟩
abbrev main_c_7 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_8 : Ref sig .tc := ⟨.hbm, 67, rfl⟩
abbrev main_v29 : Ref sig .tc := ⟨.hbm, 68, rfl⟩
abbrev main_c_9 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_10 : Ref sig .tc := ⟨.hbm, 76, rfl⟩
abbrev main_v36 : Ref sig .tc := ⟨.hbm, 77, rfl⟩
abbrev main_c_11 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_12 : Ref sig .tc := ⟨.hbm, 85, rfl⟩
abbrev main_v43 : Ref sig .tc := ⟨.hbm, 86, rfl⟩
abbrev main_c_13 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_14 : Ref sig .tc := ⟨.hbm, 94, rfl⟩
abbrev main_v50 : Ref sig .tc := ⟨.hbm, 95, rfl⟩
abbrev main_c_15 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_16 : Ref sig .tc := ⟨.hbm, 103, rfl⟩
abbrev main_v57 : Ref sig .tc := ⟨.hbm, 104, rfl⟩
abbrev main_c_17 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_18 : Ref sig .tc := ⟨.hbm, 112, rfl⟩
abbrev main_v64 : Ref sig .tc := ⟨.hbm, 113, rfl⟩
abbrev main_c_19 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_c_20 : Ref sig .tc := ⟨.hbm, 121, rfl⟩
abbrev main_v71 : Ref sig .tc := ⟨.hbm, 122, rfl⟩
abbrev main_c_21 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_22 : Ref sig .tc := ⟨.hbm, 130, rfl⟩
abbrev main_v78 : Ref sig .tc := ⟨.hbm, 131, rfl⟩
abbrev main_c_23 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_24 : Ref sig .tc := ⟨.hbm, 139, rfl⟩
abbrev main_v85 : Ref sig .tc := ⟨.hbm, 140, rfl⟩
abbrev main_c_25 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_26 : Ref sig .tc := ⟨.hbm, 148, rfl⟩
abbrev main_v92 : Ref sig .tc := ⟨.hbm, 149, rfl⟩
abbrev main_c_27 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_28 : Ref sig .tc := ⟨.hbm, 157, rfl⟩
abbrev main_v99 : Ref sig .tc := ⟨.hbm, 158, rfl⟩
abbrev main_c_29 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_30 : Ref sig .tc := ⟨.hbm, 166, rfl⟩
abbrev main_v106 : Ref sig .tc := ⟨.hbm, 167, rfl⟩
abbrev main_c_31 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_c_32 : Ref sig .tc := ⟨.hbm, 175, rfl⟩
abbrev main_v113 : Ref sig .tc := ⟨.hbm, 176, rfl⟩
abbrev main_c_33 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_34 : Ref sig .tc := ⟨.hbm, 184, rfl⟩
abbrev main_v120 : Ref sig .tc := ⟨.hbm, 185, rfl⟩
abbrev main_c_35 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_c_36 : Ref sig .tc := ⟨.hbm, 193, rfl⟩
abbrev main_v127 : Ref sig .tc := ⟨.hbm, 194, rfl⟩
abbrev main_c_37 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_c_38 : Ref sig .tc := ⟨.hbm, 202, rfl⟩
abbrev main_v134 : Ref sig .tc := ⟨.hbm, 203, rfl⟩
abbrev main_c_39 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_40 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_41 : Ref sig .tc := ⟨.hbm, 215, rfl⟩
abbrev main_v144 : Ref sig .tc := ⟨.hbm, 216, rfl⟩
abbrev main_v145 : Ref sig .tc := ⟨.hbm, 217, rfl⟩
abbrev main_cst_42 : Ref sig .tc := ⟨.hbm, 218, rfl⟩
abbrev main_v146 : Ref sig .tc := ⟨.hbm, 219, rfl⟩
abbrev main_v147 : Ref sig .tc := ⟨.hbm, 220, rfl⟩
abbrev main_cst_43 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_cst_44 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_cst_45 : Ref sig .tc := ⟨.hbm, 232, rfl⟩
abbrev main_call2_v0 : Ref sig .tc := ⟨.hbm, 233, rfl⟩
abbrev main_call2_v1 : Ref sig .tc := ⟨.hbm, 234, rfl⟩
abbrev main_v157 : Ref sig .tc := ⟨.hbm, 235, rfl⟩
abbrev main_cst_46 : Ref sig .tc := ⟨.hbm, 236, rfl⟩
abbrev main_v158 : Ref sig .tc := ⟨.hbm, 237, rfl⟩
abbrev main_v159 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v22 : BitVec 1 := Scalar.cmpi .eq arg1 c4_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  reduces_S256x6400_S256 : S256x6400.Reduces [1] S256
  shapeCasts_S256_S256x1 : S256.ShapeCasts S256x1
  reducesTo_S2048x1_S_d0_1 : S2048x1.ReducesTo [0, 1] S_
  h_S_ : 0 < S_.numel
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  slices_S2048x20_S2048x1_0_0 : S2048x20.Slices ![0, 0] S2048x1
  slices_S2048x20_S2048x1_0_1 : S2048x20.Slices ![0, 1] S2048x1
  reducesTo_S2048x1_S2048_d1 : S2048x1.ReducesTo [1] S2048
  bcast_S_S1 : S_.BroadcastsInDim S1 (![] : Fin 0 → Fin S1.rank)
  slices_S2048x20_S2048x2_0_0 : S2048x20.Slices ![0, 0] S2048x2
  slices_S2048x20_S2048x1_0_2 : S2048x20.Slices ![0, 2] S2048x1
  bcast_S2048x1_S2048x2_0_1 : S2048x1.BroadcastsInDim S2048x2 (![0, 1] : Fin 2 → Fin S2048x2.rank)
  reducesTo_S2048x2_S2048_d1 : S2048x2.ReducesTo [1] S2048
  slices_S2048x20_S2048x3_0_0 : S2048x20.Slices ![0, 0] S2048x3
  slices_S2048x20_S2048x1_0_3 : S2048x20.Slices ![0, 3] S2048x1
  bcast_S2048x1_S2048x3_0_1 : S2048x1.BroadcastsInDim S2048x3 (![0, 1] : Fin 2 → Fin S2048x3.rank)
  reducesTo_S2048x3_S2048_d1 : S2048x3.ReducesTo [1] S2048
  slices_S2048x20_S2048x4_0_0 : S2048x20.Slices ![0, 0] S2048x4
  slices_S2048x20_S2048x1_0_4 : S2048x20.Slices ![0, 4] S2048x1
  bcast_S2048x1_S2048x4_0_1 : S2048x1.BroadcastsInDim S2048x4 (![0, 1] : Fin 2 → Fin S2048x4.rank)
  reducesTo_S2048x4_S2048_d1 : S2048x4.ReducesTo [1] S2048
  slices_S2048x20_S2048x5_0_0 : S2048x20.Slices ![0, 0] S2048x5
  slices_S2048x20_S2048x1_0_5 : S2048x20.Slices ![0, 5] S2048x1
  bcast_S2048x1_S2048x5_0_1 : S2048x1.BroadcastsInDim S2048x5 (![0, 1] : Fin 2 → Fin S2048x5.rank)
  reducesTo_S2048x5_S2048_d1 : S2048x5.ReducesTo [1] S2048
  slices_S2048x20_S2048x6_0_0 : S2048x20.Slices ![0, 0] S2048x6
  slices_S2048x20_S2048x1_0_6 : S2048x20.Slices ![0, 6] S2048x1
  bcast_S2048x1_S2048x6_0_1 : S2048x1.BroadcastsInDim S2048x6 (![0, 1] : Fin 2 → Fin S2048x6.rank)
  reducesTo_S2048x6_S2048_d1 : S2048x6.ReducesTo [1] S2048
  slices_S2048x20_S2048x7_0_0 : S2048x20.Slices ![0, 0] S2048x7
  slices_S2048x20_S2048x1_0_7 : S2048x20.Slices ![0, 7] S2048x1
  bcast_S2048x1_S2048x7_0_1 : S2048x1.BroadcastsInDim S2048x7 (![0, 1] : Fin 2 → Fin S2048x7.rank)
  reducesTo_S2048x7_S2048_d1 : S2048x7.ReducesTo [1] S2048
  slices_S2048x20_S2048x8_0_0 : S2048x20.Slices ![0, 0] S2048x8
  slices_S2048x20_S2048x1_0_8 : S2048x20.Slices ![0, 8] S2048x1
  bcast_S2048x1_S2048x8_0_1 : S2048x1.BroadcastsInDim S2048x8 (![0, 1] : Fin 2 → Fin S2048x8.rank)
  reducesTo_S2048x8_S2048_d1 : S2048x8.ReducesTo [1] S2048
  slices_S2048x20_S2048x9_0_0 : S2048x20.Slices ![0, 0] S2048x9
  slices_S2048x20_S2048x1_0_9 : S2048x20.Slices ![0, 9] S2048x1
  bcast_S2048x1_S2048x9_0_1 : S2048x1.BroadcastsInDim S2048x9 (![0, 1] : Fin 2 → Fin S2048x9.rank)
  reducesTo_S2048x9_S2048_d1 : S2048x9.ReducesTo [1] S2048
  slices_S2048x20_S2048x10_0_0 : S2048x20.Slices ![0, 0] S2048x10
  slices_S2048x20_S2048x1_0_10 : S2048x20.Slices ![0, 10] S2048x1
  bcast_S2048x1_S2048x10_0_1 : S2048x1.BroadcastsInDim S2048x10 (![0, 1] : Fin 2 → Fin S2048x10.rank)
  reducesTo_S2048x10_S2048_d1 : S2048x10.ReducesTo [1] S2048
  slices_S2048x20_S2048x11_0_0 : S2048x20.Slices ![0, 0] S2048x11
  slices_S2048x20_S2048x1_0_11 : S2048x20.Slices ![0, 11] S2048x1
  bcast_S2048x1_S2048x11_0_1 : S2048x1.BroadcastsInDim S2048x11 (![0, 1] : Fin 2 → Fin S2048x11.rank)
  reducesTo_S2048x11_S2048_d1 : S2048x11.ReducesTo [1] S2048
  slices_S2048x20_S2048x12_0_0 : S2048x20.Slices ![0, 0] S2048x12
  slices_S2048x20_S2048x1_0_12 : S2048x20.Slices ![0, 12] S2048x1
  bcast_S2048x1_S2048x12_0_1 : S2048x1.BroadcastsInDim S2048x12 (![0, 1] : Fin 2 → Fin S2048x12.rank)
  reducesTo_S2048x12_S2048_d1 : S2048x12.ReducesTo [1] S2048
  slices_S2048x20_S2048x13_0_0 : S2048x20.Slices ![0, 0] S2048x13
  slices_S2048x20_S2048x1_0_13 : S2048x20.Slices ![0, 13] S2048x1
  bcast_S2048x1_S2048x13_0_1 : S2048x1.BroadcastsInDim S2048x13 (![0, 1] : Fin 2 → Fin S2048x13.rank)
  reducesTo_S2048x13_S2048_d1 : S2048x13.ReducesTo [1] S2048
  slices_S2048x20_S2048x14_0_0 : S2048x20.Slices ![0, 0] S2048x14
  slices_S2048x20_S2048x1_0_14 : S2048x20.Slices ![0, 14] S2048x1
  bcast_S2048x1_S2048x14_0_1 : S2048x1.BroadcastsInDim S2048x14 (![0, 1] : Fin 2 → Fin S2048x14.rank)
  reducesTo_S2048x14_S2048_d1 : S2048x14.ReducesTo [1] S2048
  slices_S2048x20_S2048x15_0_0 : S2048x20.Slices ![0, 0] S2048x15
  slices_S2048x20_S2048x1_0_15 : S2048x20.Slices ![0, 15] S2048x1
  bcast_S2048x1_S2048x15_0_1 : S2048x1.BroadcastsInDim S2048x15 (![0, 1] : Fin 2 → Fin S2048x15.rank)
  reducesTo_S2048x15_S2048_d1 : S2048x15.ReducesTo [1] S2048
  slices_S2048x20_S2048x16_0_0 : S2048x20.Slices ![0, 0] S2048x16
  slices_S2048x20_S2048x1_0_16 : S2048x20.Slices ![0, 16] S2048x1
  bcast_S2048x1_S2048x16_0_1 : S2048x1.BroadcastsInDim S2048x16 (![0, 1] : Fin 2 → Fin S2048x16.rank)
  reducesTo_S2048x16_S2048_d1 : S2048x16.ReducesTo [1] S2048
  slices_S2048x20_S2048x17_0_0 : S2048x20.Slices ![0, 0] S2048x17
  slices_S2048x20_S2048x1_0_17 : S2048x20.Slices ![0, 17] S2048x1
  bcast_S2048x1_S2048x17_0_1 : S2048x1.BroadcastsInDim S2048x17 (![0, 1] : Fin 2 → Fin S2048x17.rank)
  reducesTo_S2048x17_S2048_d1 : S2048x17.ReducesTo [1] S2048
  slices_S2048x20_S2048x18_0_0 : S2048x20.Slices ![0, 0] S2048x18
  slices_S2048x20_S2048x1_0_18 : S2048x20.Slices ![0, 18] S2048x1
  bcast_S2048x1_S2048x18_0_1 : S2048x1.BroadcastsInDim S2048x18 (![0, 1] : Fin 2 → Fin S2048x18.rank)
  reducesTo_S2048x18_S2048_d1 : S2048x18.ReducesTo [1] S2048
  slices_S2048x20_S2048x19_0_0 : S2048x20.Slices ![0, 0] S2048x19
  slices_S2048x20_S2048x1_0_19 : S2048x20.Slices ![0, 19] S2048x1
  bcast_S2048x1_S2048x19_0_1 : S2048x1.BroadcastsInDim S2048x19 (![0, 1] : Fin 2 → Fin S2048x19.rank)
  reducesTo_S2048x19_S2048_d1 : S2048x19.ReducesTo [1] S2048
  reducesTo_S2048x20_S_d0_1 : S2048x20.ReducesTo [0, 1] S_
  gather_S2048x32000_S2048x20x1_S2048x20_n_1_0_0_1_2_11_wf : GatherDims.WF S2048x32000 S2048x20x1 S2048x20 [] [1] [0] [1] [0] 2 ![1, 1]
  scatter_S2048x20_S1_S2048_0_1_1_0_wf : ScatterDims.WF S2048x20 S1 S2048 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S2048x32000.size a
  hwx0_0 : ∀ i : grid0.Coords, EltTy.bits .f32 = 32 ∨ (Rect.block (s := S2048x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)

variable [Facts₀]

def gather_S2048x32000_S2048x20x1_S2048x20_n_1_0_0_1_2_11 : GatherDims S2048x32000 S2048x20x1 S2048x20 where
  offsetDims := []
  collapsedSliceDims := [1]
  operandBatchingDims := [0]
  startIndicesBatchingDims := [0]
  startIndexMap := [1]
  indexVectorDim := 2
  sliceSizes := ![1, 1]
  wf := gather_S2048x32000_S2048x20x1_S2048x20_n_1_0_0_1_2_11_wf
def scatter_S2048x20_S1_S2048_0_1_1_0 : ScatterDims S2048x20 S1 S2048 where
  updateWindowDims := [0]
  insertedWindowDims := [1]
  scatterDimsToOperandDims := [1]
  indexVectorDim := 0
  wf := scatter_S2048x20_S1_S2048_0_1_1_0_wf

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2048x32000 : Shape := ⟨2, ![2048, 32000]⟩
abbrev S2048x20 : Shape := ⟨2, ![2048, 20]⟩
abbrev S2048 : Shape := ⟨1, ![2048]⟩
abbrev S2048x1 : Shape := ⟨2, ![2048, 1]⟩
abbrev S_ : Shape := ⟨0, ![]⟩
abbrev S2048x20x1 : Shape := ⟨3, ![2048, 20, 1]⟩
abbrev S2048x20x2 : Shape := ⟨3, ![2048, 20, 2]⟩

abbrev nBuf : Space → Nat
  | .hbm => 76
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048x20, .i32⟩
  | .hbm, ⟨2, _⟩ => ⟨S2048, .i32⟩
  | .hbm, ⟨3, _⟩ => ⟨S2048x1, .i32⟩
  | .hbm, ⟨4, _⟩ => ⟨S_, .f32⟩
  | .hbm, ⟨5, _⟩ => ⟨S2048x32000, .f32⟩
  | .hbm, ⟨6, _⟩ => ⟨S_, .i32⟩
  | .hbm, ⟨7, _⟩ => ⟨S2048x1, .i32⟩
  | .hbm, ⟨8, _⟩ => ⟨S2048x1, .i1⟩
  | .hbm, ⟨9, _⟩ => ⟨S_, .i32⟩
  | .hbm, ⟨10, _⟩ => ⟨S2048x1, .i32⟩
  | .hbm, ⟨11, _⟩ => ⟨S2048x1, .i32⟩
  | .hbm, ⟨12, _⟩ => ⟨S2048x1, .i32⟩
  | .hbm, ⟨13, _⟩ => ⟨S_, .i32⟩
  | .hbm, ⟨14, _⟩ => ⟨S2048x20, .i32⟩
  | .hbm, ⟨15, _⟩ => ⟨S2048x20, .i1⟩
  | .hbm, ⟨16, _⟩ => ⟨S_, .i32⟩
  | .hbm, ⟨17, _⟩ => ⟨S2048x20, .i32⟩
  | .hbm, ⟨18, _⟩ => ⟨S2048x20, .i32⟩
  | .hbm, ⟨19, _⟩ => ⟨S2048x20, .i32⟩
  | .hbm, ⟨20, _⟩ => ⟨S2048x20, .i32⟩
  | .hbm, ⟨21, _⟩ => ⟨S2048x20x1, .i32⟩
  | .hbm, ⟨22, _⟩ => ⟨S2048x20x1, .i32⟩
  | .hbm, ⟨23, _⟩ => ⟨S2048x20x2, .i32⟩
  | .hbm, ⟨24, _⟩ => ⟨S_, .f32⟩
  | .hbm, ⟨25, _⟩ => ⟨S2048x20, .f32⟩
  | .hbm, ⟨26, _⟩ => ⟨S2048x32000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048x32000, .f32⟩
  | .hbm, ⟨31, _⟩ => ⟨S2048x32000, .f32⟩
  | .hbm, ⟨32, _⟩ => ⟨S_, .f32⟩
  | .hbm, ⟨33, _⟩ => ⟨S2048x32000, .f32⟩
  | .hbm, ⟨34, _⟩ => ⟨S2048x32000, .f32⟩
  | .hbm, ⟨35, _⟩ => ⟨S2048x32000, .f32⟩
  | .hbm, ⟨36, _⟩ => ⟨S2048x32000, .f32⟩
  | .hbm, ⟨37, _⟩ => ⟨S_, .f32⟩
  | .hbm, ⟨38, _⟩ => ⟨S2048x32000, .f32⟩
  | .hbm, ⟨39, _⟩ => ⟨S2048x32000, .f32⟩
  | .hbm, ⟨40, _⟩ => ⟨S_, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x32000, .f32⟩
  | .hbm, ⟨45, _⟩ => ⟨S2048x32000, .f32⟩
  | .hbm, ⟨46, _⟩ => ⟨S2048x32000, .f32⟩
  | .hbm, ⟨47, _⟩ => ⟨S2048x32000, .f32⟩
  | .hbm, ⟨48, _⟩ => ⟨S_, .f32⟩
  | .hbm, ⟨49, _⟩ => ⟨S2048x32000, .f32⟩
  | .hbm, ⟨50, _⟩ => ⟨S2048x32000, .f32⟩
  | .hbm, ⟨51, _⟩ => ⟨S_, .f32⟩
  | .hbm, ⟨52, _⟩ => ⟨S2048x32000, .f32⟩
  | .hbm, ⟨53, _⟩ => ⟨S2048x32000, .f32⟩
  | .hbm, ⟨54, _⟩ => ⟨S2048x32000, .f32⟩
  | .hbm, ⟨55, _⟩ => ⟨S2048x32000, .f32⟩
  | .hbm, ⟨56, _⟩ => ⟨S_, .f32⟩
  | .hbm, ⟨57, _⟩ => ⟨S2048x32000, .f32⟩
  | .hbm, ⟨58, _⟩ => ⟨S2048x32000, .f32⟩
  | .hbm, ⟨59, _⟩ => ⟨S_, .f32⟩
  | .hbm, ⟨60, _⟩ => ⟨S2048x32000, .f32⟩
  | .hbm, ⟨61, _⟩ => ⟨S2048x32000, .f32⟩
  | .hbm, ⟨62, _⟩ => ⟨S_, .f32⟩
  | .hbm, ⟨63, _⟩ => ⟨S2048x32000, .f32⟩
  | .hbm, ⟨64, _⟩ => ⟨S2048x32000, .f32⟩
  | .hbm, ⟨65, _⟩ => ⟨S2048x32000, .f32⟩
  | .hbm, ⟨66, _⟩ => ⟨S_, .f32⟩
  | .hbm, ⟨67, _⟩ => ⟨S2048x32000, .f32⟩
  | .hbm, ⟨68, _⟩ => ⟨S2048x32000, .f32⟩
  | .hbm, ⟨69, _⟩ => ⟨S_, .f32⟩
  | .hbm, ⟨70, _⟩ => ⟨S2048x32000, .f32⟩
  | .hbm, ⟨71, _⟩ => ⟨S2048x32000, .f32⟩
  | .hbm, ⟨72, _⟩ => ⟨S2048x32000, .f32⟩
  | .hbm, ⟨73, _⟩ => ⟨S2048x32000, .f32⟩
  | .hbm, ⟨74, _⟩ => ⟨S_, .f32⟩
  | .hbm, ⟨75, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S_S2048x32000 : S_.BroadcastsInDim S2048x32000 (![] : Fin 0 → Fin S2048x32000.rank)
  bcast_S_S2048x1 : S_.BroadcastsInDim S2048x1 (![] : Fin 0 → Fin S2048x1.rank)
  bcast_S_S2048x20 : S_.BroadcastsInDim S2048x20 (![] : Fin 0 → Fin S2048x20.rank)
  bcast_S2048x1_S2048x20_0_1 : S2048x1.BroadcastsInDim S2048x20 (![0, 1] : Fin 2 → Fin S2048x20.rank)
  bcast_S2048x20_S2048x20x1_0_1 : S2048x20.BroadcastsInDim S2048x20x1 (![0, 1] : Fin 2 → Fin S2048x20x1.rank)
  concatenates_S2048x20x1_S2048x20x1_S2048x20x2_d2 : Shape.Concatenates [S2048x20x1, S2048x20x1] S2048x20x2 2
  reducesTo_S2048x32000_S_d0_1 : S2048x32000.ReducesTo [0, 1] S_
  h_S_ : 0 < S_.numel
  scatter_S2048x32000_S2048x20x2_S2048x20_n_01_01_2_wf : ScatterDims.WF S2048x32000 S2048x20x2 S2048x20 [] [0, 1] [0, 1] 2

variable [Facts₀]

def scatter_S2048x32000_S2048x20x2_S2048x20_n_01_01_2 : ScatterDims S2048x32000 S2048x20x2 S2048x20 where
  updateWindowDims := []
  insertedWindowDims := [0, 1]
  scatterDimsToOperandDims := [0, 1]
  indexVectorDim := 2
  wf := scatter_S2048x32000_S2048x20x2_S2048x20_n_01_01_2_wf

class Facts : Prop extends Facts₀ where

variable [Facts]
-- ==== Proof.BitsFrameShared.lean ====
/-
  What the three runs of the kernel body and the frame share.

  The program is ONE region followed by host operations only: the region streams `src` in blocks of
  256 rows by 6400 columns over a grid of 8 row blocks by 5 column blocks, keeps a 256-by-1 accumulator in a
  scratch buffer across the 5 column blocks of a row block (zeroed at the first, added to at each, copied to
  the output block at the last), and the host operations after it touch neither argument array nor the
  region's output array as a destination.

  Stated here: the memory valuation at the region's entry (the launch contents: nothing runs before the
  region), the host operations after the region as a list of stretches with the three facts the frame run
  asks of them (they touch only unscoped TensorCore buffers, allocate nothing, and write neither a window's
  array nor an argument), `main` as the region continued by those stretches, a window's block at a grid
  point, the two branch conditions in closed form over the grid (column block 0; column block 4), where the
  output window is idle, and the staging and scratch memrefs a run is stated over.
-/
import proofs.«418686_j77841987273461_2_alg».proof.Proof.Gen.Kernel.Launch
import proofs.«418686_j77841987273461_2_alg».proof.Proof.Gen.Kernel.Skeleton
import proofs.«418686_j77841987273461_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry and the host operations after it -/

/-- Core `c`'s TensorCore buffers when the region is entered: the launch contents (no host operation precedes
    the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch (a called function's body is a stretch). -/
abbrev tailOps : List (List (HloOp τ sig (Elt F))) :=
  [hostOps1, hostOps1_1, hostOps1_2, hostOps1_3, hostOps1_4, hostOps1_5, hostOps1_6]

/-- "Writes none of: the streamed argument, the index argument, the region's output array." -/
abbrev Keeps (op : HloOp τ sig (Elt F)) : Prop :=
  Proc.devRef (τ := τ) .tc main_arg0 ∉ op.writes ∧ Proc.devRef (τ := τ) .tc main_arg1 ∉ op.writes ∧ Proc.devRef (τ := τ) .tc main_v0 ∉ op.writes

/-- An operation whose one written buffer is `d`, a buffer other than those three, writes none of them. -/
theorem keeps_of {op : HloOp τ sig (Elt F)} {d : Ref sig .tc} (hw : op.writes = {Proc.devRef .tc d})
    (h0 : main_arg0 ≠ d) (h1 : main_arg1 ≠ d) (h2 : main_v0 ≠ d) : Keeps op := by
  unfold Keeps; rw [hw]; simp only [Finset.mem_singleton]
  exact ⟨StableHlo.devRef_ne_of_ne h0, StableHlo.devRef_ne_of_ne h1, StableHlo.devRef_ne_of_ne h2⟩

local macro "kp" : term => `(keeps_of rfl (by decide) (by decide) (by decide))

/-! Stretch by stretch, one term per operation in order: it allocates nothing (by computation), and the buffer it
    writes is its own result, which is none of the three (the references compared by computation). -/
theorem hostOps1_fresh : (hostOps1 : List (HloOp τ sig (Elt F))).Forall fun op => op.fresh = ∅ :=
  ⟨rfl, rfl⟩
theorem hostOps1_keeps : (hostOps1 : List (HloOp τ sig (Elt F))).Forall fun op => Keeps op :=
  ⟨kp, kp⟩
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps1_1_keeps : (hostOps1_1 : List (HloOp τ sig (Elt F))).Forall fun op => Keeps op :=
  ⟨kp, kp, kp, kp, kp, kp, kp, kp, kp, kp, kp, kp, kp, kp, kp, kp, kp, kp, kp, kp, kp, kp⟩
theorem hostOps1_2_fresh : (hostOps1_2 : List (HloOp τ sig (Elt F))).Forall fun op => op.fresh = ∅ :=
  ⟨rfl, rfl⟩
theorem hostOps1_2_keeps : (hostOps1_2 : List (HloOp τ sig (Elt F))).Forall fun op => Keeps op :=
  ⟨kp, kp⟩
theorem hostOps1_3_fresh : (hostOps1_3 : List (HloOp τ sig (Elt F))).Forall fun op => op.fresh = ∅ :=
  ⟨rfl, rfl, rfl, rfl, rfl, rfl⟩
theorem hostOps1_3_keeps : (hostOps1_3 : List (HloOp τ sig (Elt F))).Forall fun op => Keeps op :=
  ⟨kp, kp, kp, kp, kp, kp⟩
set_option maxHeartbeats 40000000 in
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
theorem hostOps1_4_keeps : (hostOps1_4 : List (HloOp τ sig (Elt F))).Forall fun op => Keeps op :=
  ⟨kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp⟩
theorem hostOps1_5_fresh : (hostOps1_5 : List (HloOp τ sig (Elt F))).Forall fun op => op.fresh = ∅ :=
  ⟨rfl, rfl, rfl⟩
theorem hostOps1_5_keeps : (hostOps1_5 : List (HloOp τ sig (Elt F))).Forall fun op => Keeps op :=
  ⟨kp, kp, kp⟩
theorem hostOps1_6_fresh : (hostOps1_6 : List (HloOp τ sig (Elt F))).Forall fun op => op.fresh = ∅ :=
  ⟨rfl, rfl, rfl⟩
theorem hostOps1_6_keeps : (hostOps1_6 : List (HloOp τ sig (Elt F))).Forall fun op => Keeps op :=
  ⟨kp, kp, kp⟩

/-- No host operation after the region allocates. -/
theorem tail_fresh_all : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh⟩

/-- Each touches TensorCore references only. -/
theorem tail_sub_all : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub⟩

/-- None writes the streamed argument, the index argument or the region's output array. -/
theorem tail_keeps_all : (tailOps (F := F)).Forall fun ops => ops.Forall fun op => Keeps op :=
  ⟨hostOps1_keeps, hostOps1_1_keeps, hostOps1_2_keeps, hostOps1_3_keeps, hostOps1_4_keeps, hostOps1_5_keeps, hostOps1_6_keeps⟩

theorem mem_tailOps {ops : List (HloOp τ sig (Elt F))} (h : ops ∈ (tailOps (F := F))) {p : HloOp τ sig (Elt F) → Prop}
    (hall : (tailOps (F := F)).Forall fun ops => ops.Forall p) {op : HloOp τ sig (Elt F)} (hop : op ∈ ops) : p op :=
  (List.forall_iff_forall_mem.mp ((List.forall_iff_forall_mem.mp hall) ops h)) op hop

/-- `main` is the region CONTINUED BY the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The stretches touch the pipeline's arrays and the buffers that bypass the region only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (mem_tailOps hops tail_sub_all hop)
/-- They allocate nothing. -/
theorem sfx_fresh : ∀ ops ∈ (tailOps (F := F)), ∀ op ∈ ops, op.fresh = ∅ :=
  fun ops hops op hop => mem_tailOps hops tail_fresh_all hop
/-- And write no array of the pipeline. -/
theorem sfx_keeps : ∀ ops ∈ (tailOps (F := F)), ∀ op ∈ ops,
    ∀ w, Proc.devRef .tc (Pipeline.arrRef spec0 w) ∉ op.writes := by
  intro ops hops op hop w
  have h := mem_tailOps hops tail_keeps_all hop
  fin_cases w
  · exact h.1
  · exact h.2.2

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the grid -/

/-- "This is column block 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is column block 4", the last: the accumulator is copied to the output block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs a run is stated over -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S256x1 .f32 := Memref.whole cc0_scratch0
abbrev VS0_0 : View sig .tc .vmem S256x1 .f32 := scM0_0.view

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BitsFrameFirst.lean ====
/-
  The kernel body at a point of the FIRST column block of a row block (and not the last): the accumulator, whatever it held, is overwritten with zeros and then with zeros plus this block's row sums; the output block is not touched.
-/
import proofs.«418686_j77841987273461_2_alg».proof.Proof.BitsFrameShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_A (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨[], ?_, fun xi1 E K => ?run⟩
  case run =>
    simp only [cc0__focal_loss_neg_kernel_eq_skeleton]; unfold cc0__focal_loss_neg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.BitsFrameMid.lean ====
/-
  The kernel body at a point of a MIDDLE column block (neither first nor last): the accumulator, at what the point before left, is overwritten with that plus this block's row sums; the output block is not touched.
-/
import proofs.«418686_j77841987273461_2_alg».proof.Proof.BitsFrameFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_B (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨[], ?_, fun xi1 E K => ?run⟩
  case run =>
    simp only [cc0__focal_loss_neg_kernel_eq_skeleton]; unfold cc0__focal_loss_neg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.BitsFrameLast.lean ====
/-
  The kernel body at a point of the LAST column block (and not the first): the accumulator is overwritten with what the point before left plus this block's row sums, and that sum is stored whole into the output block.
-/
import proofs.«418686_j77841987273461_2_alg».proof.Proof.BitsFrameMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_C (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) :
    Σ' (L1 : List (View.Piece (Elt F) S256x1 .f32)), { LS0 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨?_, ?_, fun E K => ?run⟩
  case run =>
    simp only [cc0__focal_loss_neg_kernel_eq_skeleton]; unfold cc0__focal_loss_neg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.BitsFrame.lean ====
/-
  The frame of the program: every weakly fair execution terminates without a fault and leaves both argument
  arrays as they were, and the region's output array and every other buffer at contents this module NAMES.

  Per case of the body (first / middle / last column block of a row block) what the run leaves in the
  accumulator, and at the last also in the output block: the run's own pieces read back, which cover the
  256-by-1 buffer whole. Point by point (`outsAt0`): at the first column block the accumulator is that case's
  contents whatever it held; at a later one it is that case's contents over what the point before left. The
  region invariant carries the accumulator at `outsAt0`'s second component from one point to the next; the
  output block's staging buffer is idle (handed back untouched, not written back) except at the last column
  block, where it holds the first component. With that proof data each point's obligation is the case's run,
  and the frame run around the region gives the post; the two argument arrays are read off it (the streamed one
  is an input window's array, the index one bypasses the region and no later operation writes it).
-/
import proofs.«418686_j77841987273461_2_alg».proof.Proof.BitsFrameLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First column block: nothing is stored into the output block (a placeholder nothing consults). -/
def out0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) : Vec F S256x1 .f32 :=
  VO0_1.read (Elt F) (VO0_1.writes (Elt F) VO0_1.junk (kernelRun0_A c i arg2 harg2 arg3 harg3 arg4 harg4 hc0 hc1 x0).1)

/-- First column block: the accumulator's pieces cover it. -/
theorem scover0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) (y : S256x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S256x1.size (by sl_kernel_rfl) y

/-- First column block: what is left in the accumulator. -/
def sout0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) : Vec F S256x1 .f32 :=
  VS0_0.read (Elt F) (VS0_0.writes (Elt F) VS0_0.junk (kernelRun0_A c i arg2 harg2 arg3 harg3 arg4 harg4 hc0 hc1 x0).2.1)

/-- Middle column block: nothing is stored into the output block. -/
def out0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) : Vec F S256x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) (y : S256x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S256x1.size (by sl_kernel_rfl) y

/-- Middle column block: what is left in the accumulator. -/
def sout0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) : Vec F S256x1 .f32 :=
  VS0_0.read (Elt F) (VS0_0.writes (Elt F) VS0_0.junk (kernelRun0_B c i arg2 harg2 arg3 harg3 arg4 harg4 hc0 hc1 x0 xs0).2.1)

/-- Last column block: the one store into the output block covers it. -/
theorem cover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) (y : S256x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S256x1.size (by sl_kernel_rfl) y

/-- Last column block: what is left in the output block's staging buffer. -/
def out0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) : Vec F S256x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) (y : S256x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S256x1.size (by sl_kernel_rfl) y

/-- Last column block: what is left in the accumulator. -/
def sout0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) : Vec F S256x1 .f32 :=
  VS0_0.read (Elt F) (VS0_0.writes (Elt F) VS0_0.junk (kernelRun0_C c i arg2 harg2 arg3 harg3 arg4 harg4 hc0 hc1 x0 xs0).2.1)

/-! ## Point by point -/

/-- What the output block's staging buffer and the accumulator hold after the body at position `n` (a pair):
    the case the position's column block selects, the accumulator's previous contents those the position before left. -/
def outsAt0 (c : Dev nD) : (n : ℕ) → n < cfg0.N → Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- At a first column block. -/
theorem outsAt0_A (c : Dev nD) (t : Fin cfg0.N) (h0 : t.val % 5 = 0) (h1 : ¬t.val % 5 = 4) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- At a middle column block: over what the point before left. -/
theorem outsAt0_B (c : Dev nD) (t : Fin cfg0.N) (h0 : ¬t.val % 5 = 0) (h1 : ¬t.val % 5 = 4) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: over what the point before left. -/
theorem outsAt0_C (c : Dev nD) (t : Fin cfg0.N) (h0 : ¬t.val % 5 = 0) (h1 : t.val % 5 = 4) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2,
      sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at
    what the point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` the input's buffer at its block and the output's
    at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the position's column block says which case; the
    invariant hands the run the accumulator (at anything at the very first point, else at what the point before left)
    and takes it back at this point's contents, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 40 := N_0; omega)

/-! ## The run and the frame -/

/-- What the run leaves, buffer by buffer: a window's array at what the library computes from the proof data, every
    other buffer at the later host operations' result from there. -/
abbrev endVal (c : Dev nD) (b : Ref sig .tc) : Buf (Elt F) ((c : Thread nD τ).loc b) :=
  Pipeline.afterTail₀ cfgs (dats m) 0 (V0 m) (tailOps (F := F)) c b

set_option backward.isDefEq.respectTransparency.types false in
/-- Every weakly fair execution of `main` terminates, and every final state has the pipeline's arrays at what the
    library computes from the proof data and every other unscoped buffer as the operations after the region leave it. -/
theorem run_main : θ_run defs (onTc (τ := τ) (main (F := F))) (s₀ m ρ) (Pipeline.FramePost cfgs (dats m) 0 (endVal m)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The index argument after the run: no operation after the region writes it, and it is no window's array. -/
theorem endVal_arg1 (c : Dev nD) : endVal m c main_arg1 = m ((c : Thread nD τ).loc main_arg1) := by
  unfold endVal Pipeline.afterTail₀
  rw [StableHlo.after_of_forall_not_mem _ _ fun op hop => ?_, Pipeline.withArrays_of_ne _ c (V0 m c) _ main_arg1 (by decide)]
  · rfl
  · obtain ⟨ops, hops, hop'⟩ := List.mem_flatten.mp hop
    exact (mem_tailOps hops tail_keeps_all hop').2.1

/-- THE FRAME: both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (endVal_arg1 m c)⟩) (run_main m ρ)

end Cert.Kernel.Fr

end
-- ==== Proof.IdealFrameShared.lean ====
/-
  What the three runs of the kernel body and the frame share.

  The program is ONE region followed by host operations only: the region streams `src` in blocks of
  256 rows by 6400 columns over a grid of 8 row blocks by 5 column blocks, keeps a 256-by-1 accumulator in a
  scratch buffer across the 5 column blocks of a row block (zeroed at the first, added to at each, copied to
  the output block at the last), and the host operations after it touch neither argument array nor the
  region's output array as a destination.

  Stated here: the memory valuation at the region's entry (the launch contents: nothing runs before the
  region), the host operations after the region as a list of stretches with the three facts the frame run
  asks of them (they touch only unscoped TensorCore buffers, allocate nothing, and write neither a window's
  array nor an argument), `main` as the region continued by those stretches, a window's block at a grid
  point, the two branch conditions in closed form over the grid (column block 0; column block 4), where the
  output window is idle, and the staging and scratch memrefs a run is stated over.
-/
import proofs.«418686_j77841987273461_2_alg».proof.Proof.Gen.KernelIdeal.Launch
import proofs.«418686_j77841987273461_2_alg».proof.Proof.Gen.KernelIdeal.Skeleton
import proofs.«418686_j77841987273461_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry and the host operations after it -/

/-- Core `c`'s TensorCore buffers when the region is entered: the launch contents (no host operation precedes
    the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch (a called function's body is a stretch). -/
abbrev tailOps : List (List (HloOp τ sig (Elt F))) :=
  [hostOps1, hostOps1_1, hostOps1_2, hostOps1_3, hostOps1_4, hostOps1_5, hostOps1_6]

/-- "Writes none of: the streamed argument, the index argument, the region's output array." -/
abbrev Keeps (op : HloOp τ sig (Elt F)) : Prop :=
  Proc.devRef (τ := τ) .tc main_arg0 ∉ op.writes ∧ Proc.devRef (τ := τ) .tc main_arg1 ∉ op.writes ∧ Proc.devRef (τ := τ) .tc main_v0 ∉ op.writes

/-- An operation whose one written buffer is `d`, a buffer other than those three, writes none of them. -/
theorem keeps_of {op : HloOp τ sig (Elt F)} {d : Ref sig .tc} (hw : op.writes = {Proc.devRef .tc d})
    (h0 : main_arg0 ≠ d) (h1 : main_arg1 ≠ d) (h2 : main_v0 ≠ d) : Keeps op := by
  unfold Keeps; rw [hw]; simp only [Finset.mem_singleton]
  exact ⟨StableHlo.devRef_ne_of_ne h0, StableHlo.devRef_ne_of_ne h1, StableHlo.devRef_ne_of_ne h2⟩

local macro "kp" : term => `(keeps_of rfl (by decide) (by decide) (by decide))

/-! Stretch by stretch, one term per operation in order: it allocates nothing (by computation), and the buffer it
    writes is its own result, which is none of the three (the references compared by computation). -/
theorem hostOps1_fresh : (hostOps1 : List (HloOp τ sig (Elt F))).Forall fun op => op.fresh = ∅ :=
  ⟨rfl, rfl⟩
theorem hostOps1_keeps : (hostOps1 : List (HloOp τ sig (Elt F))).Forall fun op => Keeps op :=
  ⟨kp, kp⟩
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps1_1_keeps : (hostOps1_1 : List (HloOp τ sig (Elt F))).Forall fun op => Keeps op :=
  ⟨kp, kp, kp, kp, kp, kp, kp, kp, kp, kp, kp, kp, kp, kp, kp, kp, kp, kp, kp, kp, kp, kp⟩
theorem hostOps1_2_fresh : (hostOps1_2 : List (HloOp τ sig (Elt F))).Forall fun op => op.fresh = ∅ :=
  ⟨rfl, rfl⟩
theorem hostOps1_2_keeps : (hostOps1_2 : List (HloOp τ sig (Elt F))).Forall fun op => Keeps op :=
  ⟨kp, kp⟩
theorem hostOps1_3_fresh : (hostOps1_3 : List (HloOp τ sig (Elt F))).Forall fun op => op.fresh = ∅ :=
  ⟨rfl, rfl, rfl, rfl, rfl, rfl⟩
theorem hostOps1_3_keeps : (hostOps1_3 : List (HloOp τ sig (Elt F))).Forall fun op => Keeps op :=
  ⟨kp, kp, kp, kp, kp, kp⟩
set_option maxHeartbeats 40000000 in
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
theorem hostOps1_4_keeps : (hostOps1_4 : List (HloOp τ sig (Elt F))).Forall fun op => Keeps op :=
  ⟨kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp, kp⟩
theorem hostOps1_5_fresh : (hostOps1_5 : List (HloOp τ sig (Elt F))).Forall fun op => op.fresh = ∅ :=
  ⟨rfl, rfl, rfl⟩
theorem hostOps1_5_keeps : (hostOps1_5 : List (HloOp τ sig (Elt F))).Forall fun op => Keeps op :=
  ⟨kp, kp, kp⟩
theorem hostOps1_6_fresh : (hostOps1_6 : List (HloOp τ sig (Elt F))).Forall fun op => op.fresh = ∅ :=
  ⟨rfl, rfl, rfl⟩
theorem hostOps1_6_keeps : (hostOps1_6 : List (HloOp τ sig (Elt F))).Forall fun op => Keeps op :=
  ⟨kp, kp, kp⟩

/-- No host operation after the region allocates. -/
theorem tail_fresh_all : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh⟩

/-- Each touches TensorCore references only. -/
theorem tail_sub_all : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub⟩

/-- None writes the streamed argument, the index argument or the region's output array. -/
theorem tail_keeps_all : (tailOps (F := F)).Forall fun ops => ops.Forall fun op => Keeps op :=
  ⟨hostOps1_keeps, hostOps1_1_keeps, hostOps1_2_keeps, hostOps1_3_keeps, hostOps1_4_keeps, hostOps1_5_keeps, hostOps1_6_keeps⟩

theorem mem_tailOps {ops : List (HloOp τ sig (Elt F))} (h : ops ∈ (tailOps (F := F))) {p : HloOp τ sig (Elt F) → Prop}
    (hall : (tailOps (F := F)).Forall fun ops => ops.Forall p) {op : HloOp τ sig (Elt F)} (hop : op ∈ ops) : p op :=
  (List.forall_iff_forall_mem.mp ((List.forall_iff_forall_mem.mp hall) ops h)) op hop

/-- `main` is the region CONTINUED BY the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The stretches touch the pipeline's arrays and the buffers that bypass the region only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (mem_tailOps hops tail_sub_all hop)
/-- They allocate nothing. -/
theorem sfx_fresh : ∀ ops ∈ (tailOps (F := F)), ∀ op ∈ ops, op.fresh = ∅ :=
  fun ops hops op hop => mem_tailOps hops tail_fresh_all hop
/-- And write no array of the pipeline. -/
theorem sfx_keeps : ∀ ops ∈ (tailOps (F := F)), ∀ op ∈ ops,
    ∀ w, Proc.devRef .tc (Pipeline.arrRef spec0 w) ∉ op.writes := by
  intro ops hops op hop w
  have h := mem_tailOps hops tail_keeps_all hop
  fin_cases w
  · exact h.1
  · exact h.2.2

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the grid -/

/-- "This is column block 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is column block 4", the last: the accumulator is copied to the output block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs a run is stated over -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S256x1 .f32 := Memref.whole cc0_scratch0
abbrev VS0_0 : View sig .tc .vmem S256x1 .f32 := scM0_0.view

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealFrameFirst.lean ====
/-
  The kernel body at a point of the FIRST column block of a row block (and not the last): the accumulator, whatever it held, is overwritten with zeros and then with zeros plus this block's row sums; the output block is not touched.
-/
import proofs.«418686_j77841987273461_2_alg».proof.Proof.IdealFrameShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_A (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨[], ?_, fun xi1 E K => ?run⟩
  case run =>
    simp only [cc0__focal_loss_neg_kernel_eq_skeleton]; unfold cc0__focal_loss_neg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.IdealFrameMid.lean ====
/-
  The kernel body at a point of a MIDDLE column block (neither first nor last): the accumulator, at what the point before left, is overwritten with that plus this block's row sums; the output block is not touched.
-/
import proofs.«418686_j77841987273461_2_alg».proof.Proof.IdealFrameFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_B (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) :
    Σ' (L1 : List (View.Piece (Elt F) S256x1 .f32)), { LS0 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨[], ?_, fun xi1 E K => ?run⟩
  case run =>
    simp only [cc0__focal_loss_neg_kernel_eq_skeleton]; unfold cc0__focal_loss_neg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.IdealFrameLast.lean ====
/-
  The kernel body at a point of the LAST column block (and not the first): the accumulator is overwritten with what the point before left plus this block's row sums, and that sum is stored whole into the output block.
-/
import proofs.«418686_j77841987273461_2_alg».proof.Proof.IdealFrameMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging memref and in the accumulator at a point of this
    case, WITH the proof that on whole staging memrefs the body runs to its continuation holding the input block as it
    was and each written memref with those pieces written: the printed function is its skeleton, the symbolic executor
    runs it with both branch conditions decided by the case's hypotheses, and the pieces are what that run finds. -/
noncomputable def kernelRun0_C (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) :
    Σ' (L1 : List (View.Piece (Elt F) S256x1 .f32)), { LS0 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__focal_loss_neg_kernel i arg2 harg2 arg3 harg3 arg4 harg4) K } := by
  refine ⟨?_, ?_, fun E K => ?run⟩
  case run =>
    simp only [cc0__focal_loss_neg_kernel_eq_skeleton]; unfold cc0__focal_loss_neg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.IdealFrame.lean ====
/-
  The frame of the program: every weakly fair execution terminates without a fault and leaves both argument
  arrays as they were, and the region's output array and every other buffer at contents this module NAMES.

  Per case of the body (first / middle / last column block of a row block) what the run leaves in the
  accumulator, and at the last also in the output block: the run's own pieces read back, which cover the
  256-by-1 buffer whole. Point by point (`outsAt0`): at the first column block the accumulator is that case's
  contents whatever it held; at a later one it is that case's contents over what the point before left. The
  region invariant carries the accumulator at `outsAt0`'s second component from one point to the next; the
  output block's staging buffer is idle (handed back untouched, not written back) except at the last column
  block, where it holds the first component. With that proof data each point's obligation is the case's run,
  and the frame run around the region gives the post; the two argument arrays are read off it (the streamed one
  is an input window's array, the index one bypasses the region and no later operation writes it).
-/
import proofs.«418686_j77841987273461_2_alg».proof.Proof.IdealFrameLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First column block: nothing is stored into the output block (a placeholder nothing consults). -/
def out0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) : Vec F S256x1 .f32 :=
  VO0_1.read (Elt F) (VO0_1.writes (Elt F) VO0_1.junk (kernelRun0_A c i arg2 harg2 arg3 harg3 arg4 harg4 hc0 hc1 x0).1)

/-- First column block: the accumulator's pieces cover it. -/
theorem scover0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) (y : S256x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S256x1.size (by sl_kernel_rfl) y

/-- First column block: what is left in the accumulator. -/
def sout0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i)
    (x0 : Vec F S256x6400 .f32) : Vec F S256x1 .f32 :=
  VS0_0.read (Elt F) (VS0_0.writes (Elt F) VS0_0.junk (kernelRun0_A c i arg2 harg2 arg3 harg3 arg4 harg4 hc0 hc1 x0).2.1)

/-- Middle column block: nothing is stored into the output block. -/
def out0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) : Vec F S256x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) (y : S256x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S256x1.size (by sl_kernel_rfl) y

/-- Middle column block: what is left in the accumulator. -/
def sout0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i)
    (x0 : Vec F S256x6400 .f32) (xs0 : Vec F S256x1 .f32) : Vec F S256x1 .f32 :=
  VS0_0.read (Elt F) (VS0_0.writes (Elt F) VS0_0.junk (kernelRun0_B c i arg2 harg2 arg3 harg3 arg4 harg4 hc0 hc1 x0 xs0).2.1)

/-- Last column block: the one store into the output block covers it. -/
theorem cover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) (y : S256x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S256x1.size (by sl_kernel_rfl) y

/-- Last column block: what is left in the output block's staging buffer. -/
def out0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) : Vec F S256x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) (y : S256x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S256x1.size (by sl_kernel_rfl) y

/-- Last column block: what is left in the accumulator. -/
def sout0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i)
    (x0 : Vec F S256x6400 .f32) (xs0 : Vec F S256x1 .f32) : Vec F S256x1 .f32 :=
  VS0_0.read (Elt F) (VS0_0.writes (Elt F) VS0_0.junk (kernelRun0_C c i arg2 harg2 arg3 harg3 arg4 harg4 hc0 hc1 x0 xs0).2.1)

/-! ## Point by point -/

/-- What the output block's staging buffer and the accumulator hold after the body at position `n` (a pair):
    the case the position's column block selects, the accumulator's previous contents those the position before left. -/
def outsAt0 (c : Dev nD) : (n : ℕ) → n < cfg0.N → Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- At a first column block. -/
theorem outsAt0_A (c : Dev nD) (t : Fin cfg0.N) (h0 : t.val % 5 = 0) (h1 : ¬t.val % 5 = 4) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- At a middle column block: over what the point before left. -/
theorem outsAt0_B (c : Dev nD) (t : Fin cfg0.N) (h0 : ¬t.val % 5 = 0) (h1 : ¬t.val % 5 = 4) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: over what the point before left. -/
theorem outsAt0_C (c : Dev nD) (t : Fin cfg0.N) (h0 : ¬t.val % 5 = 0) (h1 : t.val % 5 = 4) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2,
      sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at
    what the point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` the input's buffer at its block and the output's
    at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the position's column block says which case; the
    invariant hands the run the accumulator (at anything at the very first point, else at what the point before left)
    and takes it back at this point's contents, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 40 := N_0; omega)

/-! ## The run and the frame -/

/-- What the run leaves, buffer by buffer: a window's array at what the library computes from the proof data, every
    other buffer at the later host operations' result from there. -/
abbrev endVal (c : Dev nD) (b : Ref sig .tc) : Buf (Elt F) ((c : Thread nD τ).loc b) :=
  Pipeline.afterTail₀ cfgs (dats m) 0 (V0 m) (tailOps (F := F)) c b

set_option backward.isDefEq.respectTransparency.types false in
/-- Every weakly fair execution of `main` terminates, and every final state has the pipeline's arrays at what the
    library computes from the proof data and every other unscoped buffer as the operations after the region leave it. -/
theorem run_main : θ_run defs (onTc (τ := τ) (main (F := F))) (s₀ m ρ) (Pipeline.FramePost cfgs (dats m) 0 (endVal m)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The index argument after the run: no operation after the region writes it, and it is no window's array. -/
theorem endVal_arg1 (c : Dev nD) : endVal m c main_arg1 = m ((c : Thread nD τ).loc main_arg1) := by
  unfold endVal Pipeline.afterTail₀
  rw [StableHlo.after_of_forall_not_mem _ _ fun op hop => ?_, Pipeline.withArrays_of_ne _ c (V0 m c) _ main_arg1 (by decide)]
  · rfl
  · obtain ⟨ops, hops, hop'⟩ := List.mem_flatten.mp hop
    exact (mem_tailOps hops tail_keeps_all hop').2.1

/-- THE FRAME: both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (endVal_arg1 m c)⟩) (run_main m ρ)

end Cert.KernelIdeal.Fr

end
-- ==== Proof.Spec.lean ====
/-
  The mathematics both programs compute, over the reals, and the one identity that joins them.

  With `q = max(ε, x)` the clipped probability of an entry (for `x < 1` the upper clip at 1 does not bind), the
  reference sums over every entry of the 2048-by-32000 array the focal loss
      L(g, q) = (g/4 + 3(1-g)/4) · (1 - (q·g + (1-q)(1-g)))² · (-(g·log q + (1-g)·log(1-q)))
  with `g = 1` at the columns some target of the row names and `g = 0` elsewhere. The kernel sums the `g = 0` branch
  `-3/4 · q² · log(1-q)` over EVERY entry, and adds, for each row and each target that is the FIRST occurrence of its
  column in the row, the difference of the two branches at that column. Since `L(0,q)` is the dense term and
  `L(1,q) = 1/4·(1-q)²·(-log q)`, the two totals agree: the first occurrences of a row's targets are in bijection with
  the columns the row's targets name.
-/
import Idealize.ShloMosaic.Lib.ValueIdx
import Mathlib.Analysis.SpecialFunctions.Log.Basic
import Mathlib.Algebra.BigOperators.Group.Finset.Basic

noncomputable section

open scoped BigOperators

namespace Cert.Focal

open Idealize.ShloMosaic Idealize.ShloMosaic.ValueIdx

/-- The streamed array's and the target array's shapes. -/
abbrev Sx : Shape := ⟨2, ![2048, 32000]⟩
abbrev St : Shape := ⟨2, ![2048, 20]⟩

/-- The lower clip: the binary32 number nearest 1e-8, exactly. -/
def epsR : ℝ := 11258999 / 2 ^ 50

theorem epsR_pos : 0 < epsR := by unfold epsR; positivity
theorem epsR_lt_one : epsR < 1 := by unfold epsR; norm_num

/-- The clipped probability of entry `(r, v)`, as a real. -/
def prob (x : Sx.Idx → EReal) (r : Fin 2048) (v : Fin 32000) : ℝ := max epsR (x (ix2 r v)).toReal

/-- The column that target `t` of row `r` names. -/
def col (tg : St.Idx → BitVec 32) (r : Fin 2048) (t : Fin 20) : Fin 32000 :=
  ⟨(tg (ix2 r t)).toNat % 32000, Nat.mod_lt _ (by norm_num)⟩

/-- The domain: every entry of the streamed array a real below 1; every target a column index. -/
structure Dom (x : Sx.Idx → EReal) (tg : St.Idx → BitVec 32) : Prop where
  real : ∀ i, ∃ a : ℝ, x i = (a : EReal) ∧ a < 1
  idx : ∀ j, (tg j).toNat < 32000

/-- The kernel's dense term. -/
def negK (q : ℝ) : ℝ := (-(3 / 4)) * (q * q) * Real.log (1 - q)
/-- The kernel's target-branch term. -/
def posC (q : ℝ) : ℝ := (1 / 4) * (1 - q) * (1 - q) * (-Real.log q)
/-- The kernel's dense term again, as it is recomputed at a target. -/
def negC (q : ℝ) : ℝ := (3 / 4) * (q * q) * (-Real.log (1 - q))
/-- The reference's focal loss of an entry with one-hot value `g` and probability `q`. -/
def refL (g q : ℝ) : ℝ :=
  ((1 / 4) * g + (3 / 4) * (1 - g)) * (1 - (q * g + (1 - q) * (1 - g))) ^ 2 * (-(g * Real.log q + (1 - g) * Real.log (1 - q)))

open Classical in
/-- The one-hot value of entry `(r, v)`: 1 when some target of row `r` names column `v`. -/
def hot (tg : St.Idx → BitVec 32) (r : Fin 2048) (v : Fin 32000) : ℝ := if ∃ t, col tg r t = v then 1 else 0

/-- Target `t` of row `r` is the first of the row to name its column. -/
def firstOcc (tg : St.Idx → BitVec 32) (r : Fin 2048) (t : Fin 20) : Prop := ∀ s : Fin 20, s < t → col tg r s ≠ col tg r t

open Classical in
/-- The kernel's correction at target `t` of row `r`. -/
def corr (x : Sx.Idx → EReal) (tg : St.Idx → BitVec 32) (r : Fin 2048) (t : Fin 20) : ℝ :=
  if firstOcc tg r t then posC (prob x r (col tg r t)) - negC (prob x r (col tg r t)) else 0

theorem hot_of_mem {tg : St.Idx → BitVec 32} {r : Fin 2048} {v : Fin 32000} (h : ∃ t, col tg r t = v) : hot tg r v = 1 := by
  unfold hot; exact if_pos h
theorem hot_of_not_mem {tg : St.Idx → BitVec 32} {r : Fin 2048} {v : Fin 32000} (h : ¬∃ t, col tg r t = v) : hot tg r v = 0 := by
  unfold hot; exact if_neg h
theorem corr_of_first {x : Sx.Idx → EReal} {tg : St.Idx → BitVec 32} {r : Fin 2048} {t : Fin 20} (h : firstOcc tg r t) :
    corr x tg r t = posC (prob x r (col tg r t)) - negC (prob x r (col tg r t)) := by
  unfold corr; exact if_pos h
theorem corr_of_not_first {x : Sx.Idx → EReal} {tg : St.Idx → BitVec 32} {r : Fin 2048} {t : Fin 20} (h : ¬firstOcc tg r t) :
    corr x tg r t = 0 := by
  unfold corr; exact if_neg h

/-- The reference's total. -/
def refTotal (x : Sx.Idx → EReal) (tg : St.Idx → BitVec 32) : ℝ := ∑ r : Fin 2048, ∑ v : Fin 32000, refL (hot tg r v) (prob x r v)
/-- The kernel's dense sum of one row. -/
def denseRow (x : Sx.Idx → EReal) (r : Fin 2048) : ℝ := ∑ v : Fin 32000, negK (prob x r v)
/-- The kernel's total: the dense rows, plus the corrections. -/
def kerTotal (x : Sx.Idx → EReal) (tg : St.Idx → BitVec 32) : ℝ :=
  (∑ r : Fin 2048, denseRow x r) + ∑ r : Fin 2048, ∑ t : Fin 20, corr x tg r t

/-- Under the domain the clipped probability is a real in `[ε, 1)`, and it is the entry clipped at both ends. -/
theorem prob_mem {x : Sx.Idx → EReal} {tg : St.Idx → BitVec 32} (h : Dom x tg) (r : Fin 2048) (v : Fin 32000) :
    epsR ≤ prob x r v ∧ prob x r v < 1 := by
  obtain ⟨a, ha, ha1⟩ := h.real (ix2 r v)
  unfold prob; rw [ha, EReal.toReal_coe]
  exact ⟨le_max_left _ _, max_lt epsR_lt_one ha1⟩

end Cert.Focal

end
-- ==== Proof.RefSide.lean ====
/-
  The reference's result, read as a real: the sum over every entry of the focal loss at the entry's one-hot value and
  clipped probability.
-/
import proofs.«418686_j77841987273461_2_alg».proof.Proof.Gen.ReferenceIdeal.Run
import proofs.«418686_j77841987273461_2_alg».proof.Proof.Gen.ReferenceIdeal.Read
import proofs.«418686_j77841987273461_2_alg».proof.Proof.Spec

noncomputable section

open scoped BigOperators

namespace Cert.ReferenceIdeal.RefValue

open Cert.ReferenceIdeal Cert.ReferenceIdeal.Gen Idealize.ShloMosaic Idealize.ShloMosaic.ValueIdx Cert.Focal

open Classical in
/-- A left fold of pointwise overwrites by one constant, read at an index: the constant if some step lands on the
    index, the starting value otherwise. The order of the steps does not matter. -/
theorem foldl_overwrite_apply {ι κ α : Type} (g : ι → Option κ) (c : α)
    (step : (κ → α) → ι → (κ → α))
    (hstep : ∀ r n k, step r n k = if g n = some k then c else r k) (L : List ι) (x : κ → α) (k : κ) :
    (L.foldl step x) k = if ∃ n ∈ L, g n = some k then c else x k := by
  induction L generalizing x with
  | nil => simp
  | cons n L ih =>
    rw [List.foldl_cons, ih]
    by_cases h1 : ∃ m ∈ L, g m = some k
    · rw [if_pos h1, if_pos]
      obtain ⟨m, hm, e⟩ := h1
      exact ⟨m, List.mem_cons_of_mem _ hm, e⟩
    · rw [if_neg h1, hstep]
      by_cases h2 : g n = some k
      · rw [if_pos h2, if_pos ⟨n, List.mem_cons_self, h2⟩]
      · rw [if_neg h2, if_neg]
        rintro ⟨m, hm, e⟩
        rcases List.mem_cons.1 hm with rfl | hm
        · exact h2 e
        · exact h1 ⟨m, hm, e⟩

/-- The scatter's dimension numbers. -/
abbrev D := scatter_S2048x32000_S2048x20x2_S2048x20_n_01_01_2

/-- The start index's component for the row axis is the first word of the update's index vector, read signed. -/
theorem D_start0 (j : S2048x20.Idx) (idx : IVec S2048x20x2 32) :
    D.start j idx 0 = (idx (ix3 (j 0) (j 1) 0)).toInt := by
  have h0 : (0 : Fin S2048x32000.rank) ∈ D.scatterDimsToOperandDims := by
    show (0 : Fin 2) ∈ [0, 1]; decide
  unfold ScatterDims.start
  rw [dif_pos h0]
  congr 2
  funext b
  match b with
  | ⟨0, _⟩ => rfl
  | ⟨1, _⟩ => rfl
  | ⟨2, _⟩ => rfl

/-- The start index's component for the column axis is the second word. -/
theorem D_start1 (j : S2048x20.Idx) (idx : IVec S2048x20x2 32) :
    D.start j idx 1 = (idx (ix3 (j 0) (j 1) 1)).toInt := by
  have h0 : (1 : Fin S2048x32000.rank) ∈ D.scatterDimsToOperandDims := by
    show (1 : Fin 2) ∈ [0, 1]; decide
  unfold ScatterDims.start
  rw [dif_pos h0]
  congr 2
  funext b
  match b with
  | ⟨0, _⟩ => rfl
  | ⟨1, _⟩ => rfl
  | ⟨2, _⟩ => rfl

/-- Both operand axes are inserted window axes: the window coordinate is zero. -/
theorem D_window (j : S2048x20.Idx) (a : Fin S2048x32000.rank) : D.window j a = 0 := by
  have h0 : a ∉ D.sKept := by
    show a ∉ S2048x32000.kept [0, 1]
    revert a; decide
  unfold ScatterDims.window
  rw [dif_neg h0]

/-- An update whose two index words are a row and a column of the operand lands at that entry. -/
theorem D_resultIdx (j : S2048x20.Idx) (idx : IVec S2048x20x2 32) (a : Fin 2048) (b : Fin 32000)
    (h0 : (idx (ix3 (j 0) (j 1) 0)).toInt = (a.val : Int)) (h1 : (idx (ix3 (j 0) (j 1) 1)).toInt = (b.val : Int)) :
    D.resultIdx? j idx = some (ix2 a b) := by
  have H : ∀ c, 0 ≤ D.start j idx c + D.window j c ∧ D.start j idx c + D.window j c < S2048x32000.size c := by
    intro c
    match c with
    | ⟨0, _⟩ =>
      rw [show (⟨0, _⟩ : Fin S2048x32000.rank) = 0 from rfl, D_start0, D_window, h0]
      have := a.isLt
      show 0 ≤ (a.val : Int) + ((0 : Nat) : Int) ∧ (a.val : Int) + ((0 : Nat) : Int) < ((2048 : Nat) : Int)
      omega
    | ⟨1, _⟩ =>
      rw [show (⟨1, _⟩ : Fin S2048x32000.rank) = 1 from rfl, D_start1, D_window, h1]
      have := b.isLt
      show 0 ≤ (b.val : Int) + ((0 : Nat) : Int) ∧ (b.val : Int) + ((0 : Nat) : Int) < ((32000 : Nat) : Int)
      omega
  unfold ScatterDims.resultIdx?
  rw [dif_pos H]
  congr 1
  funext c
  match c with
  | ⟨0, _⟩ =>
    apply Fin.ext
    show (D.start j idx 0 + D.window j 0).toNat = a.val
    rw [D_start0, D_window, h0]; omega
  | ⟨1, _⟩ =>
    apply Fin.ext
    show (D.start j idx 1 + D.window j 1).toNat = b.val
    rw [D_start1, D_window, h1]; omega

/-- A 32-bit word below 2^31 read as a signed integer is its unsigned value. -/
theorem toInt_of_small (w : BitVec 32) (h : w.toNat < 2147483648) : w.toInt = (w.toNat : Int) := by
  rw [BitVec.toInt_eq_toNat_cond, if_pos (by omega)]

/-- Such a word is not negative: the signed comparison with zero answers 0. -/
theorem slt_zero_of_small (w : BitVec 32) (h : w.toNat < 2147483648) : IntOp.cmpi .slt w 0#32 = 0#1 := by
  unfold IntOp.cmpi
  have hn : ¬ ((w.toNat : Int) < 0) := by omega
  simp [BitVec.slt, toInt_of_small w h, hn]

/-- The first word of update (r, t)'s index vector is the row r. -/
theorem v16_row (tg : St.Idx → BitVec 32) (r : Fin 2048) (t : Fin 20) :
    Read.val_main_v16 (F := Ideal) tg (ix3 r t (0 : Fin 2)) = BitVec.ofNat 32 r.val := by
  unfold Read.val_main_v16
  rw [concatenate_pair_apply_left (s₁ := S2048x20x1) (s₂ := S2048x20x1) (2 : Fin 3) _ _ _ (ix3 r t (0 : Fin 2)) rfl
    (ix3 r t (0 : Fin 1)) (by intro b; match b with | ⟨0, _⟩ => rfl | ⟨1, _⟩ => rfl | ⟨2, _⟩ => rfl)]
  rw [Read.val_main_v14_apply, Read.val_main_v13_apply, Read.val_main_v7_apply, Read.val_main_v4_apply,
    Read.val_main_v3_apply, Read.val_main_c_apply, Read.val_main_v1_apply, Read.val_main_v0_apply]
  have hs : (BitVec.ofNat 32 r.val).toNat < 2147483648 := by
    rw [BitVec.toNat_ofNat]; have := r.isLt; omega
  show Scalar.select (IntOp.cmpi .slt (BitVec.ofNat 32 r.val) 0#32) _ (BitVec.ofNat 32 r.val) = _
  rw [slt_zero_of_small _ hs, select_zero]

/-- The second word is the target itself when the target is a column index. -/
theorem v16_col (tg : St.Idx → BitVec 32) (r : Fin 2048) (t : Fin 20) (h : (tg (ix2 r t)).toNat < 32000) :
    Read.val_main_v16 (F := Ideal) tg (ix3 r t (1 : Fin 2)) = tg (ix2 r t) := by
  unfold Read.val_main_v16
  rw [concatenate_pair_apply_right (s₁ := S2048x20x1) (s₂ := S2048x20x1) (2 : Fin 3) _ _ _ (ix3 r t (1 : Fin 2)) rfl rfl
    (ix3 r t (0 : Fin 1))
    (by intro b hb; match b with | ⟨0, _⟩ => rfl | ⟨1, _⟩ => rfl | ⟨2, _⟩ => exact absurd rfl hb) rfl]
  have e : Read.idx_main_v15 (ix3 r t (0 : Fin 1)) = ix2 r t := by
    funext a; match a with | ⟨0, _⟩ => rfl | ⟨1, _⟩ => rfl
  rw [Read.val_main_v15_apply, Read.val_main_v12_apply, Read.val_main_v9_apply, Read.val_main_v8_apply,
    Read.val_main_c_1_apply, e]
  rw [slt_zero_of_small _ (by omega), select_zero]

/-- Under the domain, update (r, t) lands at row r, column col tg r t. -/
theorem lands (tg : St.Idx → BitVec 32) (hidx : ∀ j, (tg j).toNat < 32000) (r : Fin 2048) (t : Fin 20) :
    D.resultIdx? (ix2 r t) (Read.val_main_v16 (F := Ideal) tg) = some (ix2 r (col tg r t)) := by
  have ht := hidx (ix2 r t)
  refine D_resultIdx (ix2 r t) _ r (col tg r t) ?_ ?_
  · show (Read.val_main_v16 (F := Ideal) tg (ix3 r t (0 : Fin 2))).toInt = _
    rw [v16_row, toInt_of_small _ (by rw [BitVec.toNat_ofNat]; have := r.isLt; omega), BitVec.toNat_ofNat]
    have := r.isLt
    rw [Nat.mod_eq_of_lt (by omega)]
  · show (Read.val_main_v16 (F := Ideal) tg (ix3 r t (1 : Fin 2))).toInt = _
    rw [v16_col tg r t ht, toInt_of_small _ (by omega)]
    show ((tg (ix2 r t)).toNat : Int) = (((tg (ix2 r t)).toNat % 32000 : Nat) : Int)
    rw [Nat.mod_eq_of_lt ht]

/-- The f32 words of the program's constants, as reals. -/
theorem c_one : Ideal.ofBits .f32 0x3F800000#32 = ((1 : ℝ) : EReal) := by
  simp [Ideal.ofBits, Ideal.ieee, -EReal.coe_mul]; norm_num
theorem c_eps : Ideal.ofBits .f32 0x322BCC77#32 = ((epsR : ℝ) : EReal) := by
  unfold epsR
  simp [Ideal.ofBits, Ideal.ieee, -EReal.coe_mul]; norm_num
theorem c_quarter : Ideal.ofBits .f32 0x3E800000#32 = (((1 : ℝ) / 4 : ℝ) : EReal) := by
  simp [Ideal.ofBits, Ideal.ieee, -EReal.coe_mul]; norm_num
theorem c_three_quarters : Ideal.ofBits .f32 0x3F400000#32 = (((3 : ℝ) / 4 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- The scatter's result at an entry: one where some target of the row names the column, zero elsewhere. Every update
    writes the same value, so which of several updates landing on one entry comes last does not matter. -/
theorem v18_apply (tg : St.Idx → BitVec 32) (hidx : ∀ j, (tg j).toNat < 32000) (r : Fin 2048) (v : Fin 32000) :
    Read.val_main_v18 (F := Ideal) tg (ix2 r v) = ((hot tg r v : ℝ) : EReal) := by
  unfold Read.val_main_v18 Host.scatter
  refine (foldl_overwrite_apply
    (fun n => D.resultIdx? (S2048x20.rowMajor.symm n) (Read.val_main_v16 (F := Ideal) tg))
    ((1 : ℝ) : EReal) _ ?_ _ _ _).trans ?_
  · intro ρ n k
    have hc : Read.val_main_v17 (F := Ideal) (S2048x20.rowMajor.symm n) = ((1 : ℝ) : EReal) := by
      rw [Read.val_main_v17_apply, Read.val_main_cst_3_apply]; exact c_one
    dsimp only
    rw [hc]
    rcases D.resultIdx? (S2048x20.rowMajor.symm n) (Read.val_main_v16 (F := Ideal) tg) with _ | i
    · simp
    · by_cases hk : k = i
      · subst hk; simp
      · have hne : ¬ (some i = some k) := fun e => hk (Option.some.inj e).symm
        simp [hk, hne]
  · have hz : Read.val_main_v2 (F := Ideal) (ix2 r v) = ((0 : ℝ) : EReal) := by
      rw [Read.val_main_v2_apply, Read.val_main_cst_apply, EReal.coe_zero]; exact Ideal.ofBits_zero_f32
    by_cases hm : ∃ t, col tg r t = v
    · obtain ⟨t, ht⟩ := hm
      rw [hot_of_mem ⟨t, ht⟩, if_pos]
      refine ⟨S2048x20.rowMajor (ix2 r t), List.mem_finRange _, ?_⟩
      show D.resultIdx? (S2048x20.rowMajor.symm (S2048x20.rowMajor (ix2 r t))) _ = _
      rw [Equiv.symm_apply_apply, lands tg hidx r t, ht]
    · rw [hot_of_not_mem hm, if_neg, hz]
      rintro ⟨n, _, hn⟩
      apply hm
      obtain ⟨r', t', hj⟩ : ∃ (r' : Fin 2048) (t' : Fin 20), S2048x20.rowMajor.symm n = ix2 r' t' :=
        ⟨(S2048x20.rowMajor.symm n) 0, (S2048x20.rowMajor.symm n) 1, eq_ix2 _⟩
      have hn' : D.resultIdx? (S2048x20.rowMajor.symm n) (Read.val_main_v16 (F := Ideal) tg) = some (ix2 r v) := hn
      rw [hj, lands tg hidx r' t'] at hn'
      have e := Option.some.inj hn'
      have e0 : r' = r := congrFun e 0
      have e1 : col tg r' t' = v := congrFun e 1
      exact ⟨t', by rw [← e0]; exact e1⟩

/-- The clip of an entry that is a real below one is the real `max ε a`: the upper clip at one does not bind. -/
theorem v19_apply (x : Sx.Idx → EReal) (tg : St.Idx → BitVec 32) (h : Dom x tg) (r : Fin 2048) (v : Fin 32000) :
    Read.val_main_v19 (F := Ideal) x (ix2 r v) = ((prob x r v : ℝ) : EReal) := by
  obtain ⟨a, ha, ha1⟩ := h.real (ix2 r v)
  rw [Read.val_main_v19_apply, Read.val_main_call0_v4_apply, Read.val_main_call0_v3_apply, Read.val_main_cst_5_apply,
    Read.val_main_call0_v2_apply, Read.val_main_call0_v1_apply, Read.val_main_call0_v0_apply, Read.val_main_cst_4_apply]
  show min (Ideal.ofBits .f32 0x3F800000#32) (max (Ideal.ofBits .f32 0x322BCC77#32) (x (ix2 r v))) = _
  unfold prob
  have hmax : max ((epsR : ℝ) : EReal) ((a : ℝ) : EReal) = ((max epsR a : ℝ) : EReal) :=
    (EReal.coe_strictMono.monotone.map_max).symm
  rw [c_one, c_eps, ha, EReal.toReal_coe, hmax, min_eq_right]
  exact EReal.coe_le_coe_iff.2 (le_of_lt (max_lt epsR_lt_one ha1))

/-- The elementwise stage before the sum, at an entry: the focal loss of the entry's one-hot value and clipped
    probability. Both logarithms' arguments are positive reals, and the square is the real square whatever the sign of
    its base. -/
theorem v49_apply (x : Sx.Idx → EReal) (tg : St.Idx → BitVec 32) (h : Dom x tg) (r : Fin 2048) (v : Fin 32000) :
    Read.val_main_v49 (F := Ideal) x tg (ix2 r v) = ((refL (hot tg r v) (prob x r v) : ℝ) : EReal) := by
  have hg := v18_apply tg h.idx r v
  have hq := v19_apply x tg h r v
  obtain ⟨hq0, hq1⟩ := prob_mem h r v
  have hql : ¬ prob x r v ≤ 0 := not_le.2 (lt_of_lt_of_le epsR_pos hq0)
  have h1q : ¬ 1 - prob x r v ≤ 0 := by linarith
  generalize hot tg r v = g at hg ⊢
  generalize prob x r v = q at hq hql h1q ⊢
  simp only [Read.val_main_v49_apply, Read.val_main_v48_apply, Read.val_main_v47_apply, Read.val_main_v46_apply,
    Read.val_main_v45_apply, Read.val_main_v44_apply, Read.val_main_v43_apply, Read.val_main_v42_apply,
    Read.val_main_v41_apply, Read.val_main_v40_apply, Read.val_main_v39_apply, Read.val_main_v38_apply,
    Read.val_main_v37_apply, Read.val_main_v36_apply, Read.val_main_v35_apply, Read.val_main_v34_apply,
    Read.val_main_v33_apply, Read.val_main_v32_apply, Read.val_main_v31_apply, Read.val_main_v30_apply,
    Read.val_main_v29_apply, Read.val_main_v28_apply, Read.val_main_v27_apply, Read.val_main_v26_apply,
    Read.val_main_v25_apply, Read.val_main_v24_apply, Read.val_main_v23_apply, Read.val_main_v22_apply,
    Read.val_main_v21_apply, Read.val_main_v20_apply,
    Read.val_main_cst_6_apply, Read.val_main_cst_7_apply, Read.val_main_cst_8_apply, Read.val_main_cst_9_apply,
    Read.val_main_cst_10_apply, Read.val_main_cst_11_apply, Read.val_main_cst_12_apply, Read.val_main_cst_13_apply,
    Read.val_main_cst_14_apply]
  simp only [hg, hq, Ideal.ofBits_def, c_one, c_two, c_quarter, c_three_quarters, Ideal.mulf_def, Ideal.addf_def,
    Ideal.subf_def, Ideal.hostNegf_def, Ideal.negf_def, Ideal.hostUnary_log_def, Ideal.hostPowf_def]
  simp only [← EReal.coe_mul, ← EReal.coe_add, ← EReal.coe_sub, ← EReal.coe_neg, Ideal.log_coe, if_neg hql, if_neg h1q,
    Ideal.pow_coe_coe, Real.rpow_eq_pow, Real.rpow_two]
  rw [EReal.coe_eq_coe_iff]
  unfold refL
  ring

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Under the domain, the reference's last stage is the constant `refTotal`: the scatter writes 1 exactly at the columns
    a row's targets name, the clip is `max ε x`, every logarithm's argument is a positive real, and the host's sum is the
    double sum over rows and columns. -/
theorem ref_total (x : Sx.Idx → EReal) (tg : St.Idx → BitVec 32) (h : Dom x tg) :
    Cert.ReferenceIdeal.Read.val_main_v50 (F := Ideal) x tg = fun _ => ((refTotal x tg : ℝ) : EReal) := by
  funext i
  rw [Read.val_main_v50_apply, Read.val_main_cst_15_apply]
  show Ideal.ofBits .f32 0x00000000#32 + _ = _
  rw [Ideal.ofBits_zero_f32, zero_add, sum_idx2]
  calc ∑ a : Fin 2048, ∑ b : Fin 32000, Read.val_main_v49 (F := Ideal) x tg (ix2 a b)
      = ∑ a : Fin 2048, ∑ b : Fin 32000, ((refL (hot tg a b) (prob x a b) : ℝ) : EReal) :=
        Finset.sum_congr rfl fun a _ => Finset.sum_congr rfl fun b _ => v49_apply x tg h a b
    _ = ∑ a : Fin 2048, ((∑ b : Fin 32000, refL (hot tg a b) (prob x a b) : ℝ) : EReal) :=
        Finset.sum_congr rfl fun a _ => coe_sum _ _
    _ = ((refTotal x tg : ℝ) : EReal) := coe_sum _ _

end Cert.ReferenceIdeal.RefValue

end
-- ==== Proof.LibScatter.lean ====
/-
  A host scatter read at one index.

  `Host.scatter d f x idx upd` is the left fold, over the update indices in row-major order, of the step
  "where update `j` lands inside the operand at `i`, replace the element at `i` by `f` of it and the update".
  Three consequences, for any element type and any dimension numbers:
  * an index on which no update lands keeps the operand's element;
  * an index on which exactly one update lands holds `f` of the operand's element and that update
    (the order of the other updates does not matter: they never touch this index);
  * when every update writes one constant `c` over what is there (`f := fun _ b => b`), each element of the
    result is the operand's or `c`.
-/
import Idealize.ShloMosaic.PureOps.ShapeOps

namespace Idealize.ShloMosaic.ScatterRead

variable {α : Type} {s si u : Shape} {w : Nat}

/-- One step of the fold: update number `n` (in row-major order) applied to the running result `r`. -/
private def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over all update numbers. -/
private theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `p` leaves the element at `p` alone. -/
private theorem step_apply_of_ne (d : ScatterDims s si u) (f : α → α → α) (idx : IVec si w) (upd : u.Idx → α)
    (r : s.Idx → α) (n : Fin u.numel) (p : s.Idx) (h : d.resultIdx? (u.rowMajor.symm n) idx ≠ some p) :
    step d f idx upd r n p = r p := by
  unfold step
  generalize d.resultIdx? (u.rowMajor.symm n) idx = q at h
  cases q with
  | none => rfl
  | some i =>
    have hne : p ≠ i := fun e => h (by rw [e])
    exact if_neg hne

/-- A step whose update lands on `p` replaces the element at `p` by `f` of it and the update. -/
private theorem step_apply_of_eq (d : ScatterDims s si u) (f : α → α → α) (idx : IVec si w) (upd : u.Idx → α)
    (r : s.Idx → α) (n : Fin u.numel) (p : s.Idx) (h : d.resultIdx? (u.rowMajor.symm n) idx = some p) :
    step d f idx upd r n p = f (r p) (upd (u.rowMajor.symm n)) := by
  unfold step
  rw [h]
  exact if_pos rfl

/-- Folding over a list none of whose updates lands on `p` leaves the element at `p` alone. -/
private theorem foldl_apply_of_miss (d : ScatterDims s si u) (f : α → α → α) (idx : IVec si w) (upd : u.Idx → α)
    (p : s.Idx) (l : List (Fin u.numel)) (r : s.Idx → α)
    (h : ∀ n ∈ l, d.resultIdx? (u.rowMajor.symm n) idx ≠ some p) :
    l.foldl (step d f idx upd) r p = r p := by
  induction l generalizing r with
  | nil => rfl
  | cons a t ih =>
    rw [List.foldl_cons, ih _ (fun n hn => h n (List.mem_cons_of_mem _ hn))]
    exact step_apply_of_ne d f idx upd r a p (h a List.mem_cons_self)

/-- Folding over a list without repetition in which exactly one update, number `n0`, lands on `p`:
    the element at `p` is `f` of the starting element and that update. -/
private theorem foldl_apply_of_unique (d : ScatterDims s si u) (f : α → α → α) (idx : IVec si w) (upd : u.Idx → α)
    (p : s.Idx) (n0 : Fin u.numel) (l : List (Fin u.numel)) (r : s.Idx → α)
    (hnd : l.Nodup) (hmem : n0 ∈ l) (h0 : d.resultIdx? (u.rowMajor.symm n0) idx = some p)
    (huniq : ∀ n ∈ l, d.resultIdx? (u.rowMajor.symm n) idx = some p → n = n0) :
    l.foldl (step d f idx upd) r p = f (r p) (upd (u.rowMajor.symm n0)) := by
  induction l generalizing r with
  | nil => exact absurd hmem List.not_mem_nil
  | cons a t ih =>
    rw [List.foldl_cons]
    have hnd' := List.nodup_cons.mp hnd
    by_cases ha : a = n0
    · -- the head is the one update that lands on `p`; nothing in the tail does
      subst ha
      rw [foldl_apply_of_miss d f idx upd p t _ (fun n hn hland => by
        have := huniq n (List.mem_cons_of_mem _ hn) hland
        exact hnd'.1 (this ▸ hn))]
      exact step_apply_of_eq d f idx upd r a p h0
    · -- the head does not land on `p`; the one update that does is in the tail
      have hmem' : n0 ∈ t := by
        rcases List.mem_cons.mp hmem with e | e
        · exact absurd e.symm ha
        · exact e
      rw [ih _ hnd'.2 hmem' (fun n hn => huniq n (List.mem_cons_of_mem _ hn))]
      rw [step_apply_of_ne d f idx upd r a p (fun hland => ha (huniq a List.mem_cons_self hland))]

/-- When every update writes the constant `c`, "the element at `p` is the operand's or `c`" is kept by the fold. -/
private theorem foldl_set_const_apply (d : ScatterDims s si u) (idx : IVec si w) (c : α) (x : s.Idx → α)
    (p : s.Idx) (l : List (Fin u.numel)) (r : s.Idx → α) (hr : r p = x p ∨ r p = c) :
    l.foldl (step d (fun _ b => b) idx (fun _ => c)) r p = x p ∨
      l.foldl (step d (fun _ b => b) idx (fun _ => c)) r p = c := by
  induction l generalizing r with
  | nil => exact hr
  | cons a t ih =>
    rw [List.foldl_cons]
    apply ih
    by_cases hland : d.resultIdx? (u.rowMajor.symm a) idx = some p
    · right
      exact step_apply_of_eq d (fun _ b => b) idx (fun _ => c) r a p hland
    · rw [step_apply_of_ne d (fun _ b => b) idx (fun _ => c) r a p hland]
      exact hr

/-- An index no update lands on keeps the operand's element. -/
theorem scatter_apply_of_miss (d : ScatterDims s si u) (f : α → α → α) (x : s.Idx → α) (idx : IVec si w) (upd : u.Idx → α)
    (p : s.Idx) (h : ∀ j : u.Idx, d.resultIdx? j idx ≠ some p) :
    Host.scatter d f x idx upd p = x p := by
  rw [scatter_eq_foldl]
  exact foldl_apply_of_miss d f idx upd p _ x (fun n _ => h (u.rowMajor.symm n))

/-- An index exactly one update lands on holds `f` of the operand's element and that update. -/
theorem scatter_apply_of_unique (d : ScatterDims s si u) (f : α → α → α) (x : s.Idx → α) (idx : IVec si w) (upd : u.Idx → α)
    (p : s.Idx) (j : u.Idx) (hj : d.resultIdx? j idx = some p) (huniq : ∀ j' : u.Idx, d.resultIdx? j' idx = some p → j' = j) :
    Host.scatter d f x idx upd p = f (x p) (upd j) := by
  rw [scatter_eq_foldl]
  have e : u.rowMajor.symm (u.rowMajor j) = j := Equiv.symm_apply_apply _ _
  have := foldl_apply_of_unique d f idx upd p (u.rowMajor j) (List.finRange u.numel) x
    (List.nodup_finRange _) (List.mem_finRange _) (by rw [e]; exact hj)
    (fun n _ hland => by
      have hn := huniq _ hland
      rw [← hn, Equiv.apply_symm_apply])
  rw [this, e]

/-- Updates that all write one constant leave each element at the operand's or at the constant. -/
theorem scatter_set_const_apply (d : ScatterDims s si u) (x : s.Idx → α) (idx : IVec si w) (c : α) (p : s.Idx) :
    Host.scatter d (fun _ b => b) x idx (fun _ => c) p = x p ∨ Host.scatter d (fun _ b => b) x idx (fun _ => c) p = c := by
  rw [scatter_eq_foldl]
  exact foldl_set_const_apply d idx c x p _ x (Or.inl rfl)

end Idealize.ShloMosaic.ScatterRead
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.TailMask.lean ====
/-
  The kernel's first-occurrence mask: what the nineteen slice / compare / or-reduce / column-scatter rounds of the host
  operations after the region leave, entry by entry.

  Round `k` (1 ≤ k ≤ 19) compares the first `k` targets of every row with target `k` of the row, takes the or of the
  `k` comparisons, and writes that bit into column `k` of a 2048-by-20 array of bits that starts at 0. So after round
  `K` the entry `(r, t)` is 1 exactly when `t ≤ K` and some target before `t` in row `r` is the same word as target
  `t`; after round 19 that is "target `t` repeats an earlier target of its row", and the final negation gives "target
  `t` is the first of its row to name its column" (the words being column numbers below 32000, two of them name the
  same column exactly when they are equal).
-/
import proofs.«418686_j77841987273461_2_alg».proof.Proof.IdealFrameShared
import proofs.«418686_j77841987273461_2_alg».proof.Proof.Spec
import proofs.«418686_j77841987273461_2_alg».proof.Proof.LibScatter
import proofs.«418686_j77841987273461_2_alg».proof.Proof.LibScatterLand
import Idealize.ShloMosaic.Lib.StableHlo.Run
import Idealize.ShloMosaic.Lib.StableHlo.Predicate
import Idealize.ShloMosaic.Lib.Pipeline.Value
import Idealize.ShloMosaic.Lib.Affine
import Idealize.ShloMosaic.PureOps.Reduce

noncomputable section

namespace Cert.KernelIdeal.TailValue

open Cert.KernelIdeal Cert.KernelIdeal.Gen Idealize.ShloMosaic Idealize.ShloMosaic.TcCoe Idealize.ShloMosaic.ValueIdx Cert.Focal

/-! ## The column scatter read at an entry -/

/-- Every index of the one-element index array is its only one. -/
theorem idx_S1_eq (i i' : S1.Idx) : i = i' := by
  funext a
  have ha : a = 0 := Subsingleton.elim _ _
  subst ha
  have h1 : ∀ v : Fin (S1.size 0), v.val = 0 := fun v => by
    have hv : v.val < 1 := v.isLt
    omega
  exact Fin.ext ((h1 _).trans (h1 _).symm)

theorem colScatter_start0 (j : S2048.Idx) (idx : IVec S1 32) :
    scatter_S2048x20_S1_S2048_0_1_1_0.start j idx 0 = 0 := by
  unfold ScatterDims.start
  rw [dif_neg (by decide)]

theorem colScatter_start1 (j : S2048.Idx) (idx : IVec S1 32) :
    scatter_S2048x20_S1_S2048_0_1_1_0.start j idx 1 = (idx (ix1 0)).toInt := by
  unfold ScatterDims.start
  rw [dif_pos (by decide)]
  exact congrArg (fun i => (idx i).toInt) (idx_S1_eq _ _)

theorem colScatter_window0 (j : S2048.Idx) :
    scatter_S2048x20_S1_S2048_0_1_1_0.window j 0 = (j 0).val := by
  unfold ScatterDims.window
  rw [dif_pos (by decide)]
  rfl

theorem colScatter_window1 (j : S2048.Idx) :
    scatter_S2048x20_S1_S2048_0_1_1_0.window j 1 = 0 := by
  unfold ScatterDims.window
  rw [dif_neg (by decide)]

/-- Update `j` of a column scatter lands on entry `(r, t)` exactly when it is row `r`'s and the scalar index is `t`. -/
theorem colScatter_land (idx : IVec S1 32) (j : S2048.Idx) (r : Fin 2048) (t : Fin 20) :
    scatter_S2048x20_S1_S2048_0_1_1_0.resultIdx? j idx = some (ix2 r t) ↔ (j 0 = r ∧ (idx (ix1 0)).toInt = t.val) := by
  rw [ScatterLand.resultIdx?_eq_some_iff]
  constructor
  · intro h
    have h0 := h 0
    have h1 := h 1
    rw [colScatter_start0, colScatter_window0] at h0
    rw [colScatter_start1, colScatter_window1] at h1
    refine ⟨Fin.ext ?_, ?_⟩
    · have : ((ix2 r t (0 : Fin 2)).val : Int) = r.val := rfl
      omega
    · have : ((ix2 r t (1 : Fin 2)).val : Int) = t.val := rfl
      omega
  · rintro ⟨h0, h1⟩ a
    match a with
    | ⟨0, _⟩ =>
      show scatter_S2048x20_S1_S2048_0_1_1_0.start j idx 0 + (scatter_S2048x20_S1_S2048_0_1_1_0.window j 0 : Int) = (r.val : Int)
      rw [colScatter_start0, colScatter_window0, h0]; omega
    | ⟨1, _⟩ =>
      show scatter_S2048x20_S1_S2048_0_1_1_0.start j idx 1 + (scatter_S2048x20_S1_S2048_0_1_1_0.window j 1 : Int) = (t.val : Int)
      rw [colScatter_start1, colScatter_window1, h1]; omega

/-- A column scatter at the scalar index `k`: column `k` is the update, every other column the operand's. -/
theorem colScatter_apply {α : Type} (x : S2048x20.Idx → α) (idx : IVec S1 32) (upd : S2048.Idx → α) (k : Fin 20)
    (hk : (idx (ix1 0)).toInt = k.val) (r : Fin 2048) (t : Fin 20) :
    Host.scatter scatter_S2048x20_S1_S2048_0_1_1_0 (fun _ b => b) x idx upd (ix2 r t)
      = if t = k then upd (ix1 r) else x (ix2 r t) := by
  by_cases htk : t = k
  · subst htk
    rw [if_pos rfl]
    exact ScatterRead.scatter_apply_of_unique _ _ x idx upd (ix2 r t) (ix1 r) ((colScatter_land idx _ r t).2 ⟨rfl, hk⟩)
      (fun j' hj' => by
        have h0 := ((colScatter_land idx j' r t).1 hj').1
        rw [eq_ix1 j', h0]; rfl)
  · rw [if_neg htk]
    exact ScatterRead.scatter_apply_of_miss _ _ x idx upd (ix2 r t) (fun j hj => by
      have h1 := ((colScatter_land idx j r t).1 hj).2
      exact htk (Fin.ext (by omega)))

/-! ## The or-reduction along the second axis -/

theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- An or-reduction of a one-bit rectangle along its second axis, from 0: the result at row `p` is 1 exactly when
    some entry of row `p` is. -/
theorem reduce_ori_cols {n m : Nat} (x : IVec ⟨2, ![n, m]⟩ 1) (h : (⟨2, ![n, m]⟩ : Shape).ReducesTo [1] ⟨1, ![n]⟩)
    {u : Shape} (hu : 0 < u.numel) (p : Fin n) :
    Host.reduce IntOp.ori x (constantI u 1 0#1) h hu (ix1 p) = 1#1 ↔ ∃ q : Fin m, x (ix2 p q) = 1#1 := by
  rw [Host.reduce_eq_foldl, foldl_ori_eq_one]
  have hdrop : ∀ i : (⟨2, ![n, m]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  constructor
  · rintro (h0 | ⟨i, hi, hx⟩)
    · exact absurd (show (0#1 : BitVec 1) = 1#1 from h0) (by decide)
    · rw [List.mem_filter] at hi
      have h1 : i 0 = p := (hdrop i).1 (of_decide_eq_true hi.2)
      refine ⟨i 1, ?_⟩
      have e : ix2 p (i 1) = i := by
        funext a
        match a with
        | ⟨0, _⟩ => exact h1.symm
        | ⟨1, _⟩ => rfl
      exact (congrArg x e).trans hx
  · rintro ⟨q, hq⟩
    refine Or.inr ⟨ix2 p q, ?_, hq⟩
    rw [List.mem_filter]
    exact ⟨List.mem_map.2 ⟨_, List.mem_finRange _, Equiv.symm_apply_apply _ _⟩, decide_eq_true ((hdrop (ix2 p q)).2 rfl)⟩

/-! ## A round's operands read at an entry -/

/-- The first `k` columns of the target array, read at `(r, q)`. -/
theorem sliceCols_apply {α : Type} (k : Nat) (hk : k ≤ 20) (hs : S2048x20.Slices ![0, 0] ⟨2, ![2048, k]⟩)
    (tg : S2048x20.Idx → α) (r : Fin 2048) (q : Fin k) :
    extractStridedSlice ⟨2, ![2048, k]⟩ ![0, 0] tg hs (ix2 r q) = tg (ix2 r ⟨q.val, by omega⟩) :=
  extractStridedSlice_apply _ tg hs _ _ fun a =>
    match a with
    | ⟨0, _⟩ => by show r.val = 0 + r.val; omega
    | ⟨1, _⟩ => by show q.val = 0 + q.val; omega

/-- Column `k` of the target array as a one-column array, read at `(r, 0)`. -/
theorem sliceCol_apply {α : Type} (k : Nat) (hk : k < 20) (hs : S2048x20.Slices ![0, k] S2048x1)
    (tg : S2048x20.Idx → α) (r : Fin 2048) (q : Fin 1) :
    extractStridedSlice S2048x1 ![0, k] tg hs (ix2 r q) = tg (ix2 r ⟨k, hk⟩) :=
  extractStridedSlice_apply _ tg hs _ _ fun a =>
    match a with
    | ⟨0, _⟩ => by show r.val = 0 + r.val; omega
    | ⟨1, _⟩ => by show k = k + q.val; omega

/-- A one-column array broadcast to `k` columns reads, at `(r, q)`, the column at `(r, 0)`. -/
theorem bcastCol_apply {α : Type} (k : Nat) (hb : S2048x1.BroadcastsInDim ⟨2, ![2048, k]⟩ ![0, 1])
    (v : S2048x1.Idx → α) (r : Fin 2048) (q : Fin k) :
    broadcastInDim ⟨2, ![2048, k]⟩ ![0, 1] hb v (ix2 r q) = v (ix2 r (0 : Fin 1)) :=
  broadcastInDim_apply _ hb v _ _ fun a =>
    match a with
    | ⟨0, _⟩ => rfl
    | ⟨1, _⟩ => rfl

/-! ## The duplicate mask, round by round -/

open Classical in
/-- After round `K`: entry `(r, t)` is 1 when `t ≤ K` and some earlier target of row `r` equals target `t`. -/
def dupBit (tg : St.Idx → BitVec 32) (K : Nat) (r : Fin 2048) (t : Fin 20) : BitVec 1 :=
  if t.val ≤ K ∧ ∃ s : Fin 20, s < t ∧ tg (ix2 r s) = tg (ix2 r t) then 1#1 else 0#1

/-- The mask after round `K`, as an array. -/
def dupMask (tg : St.Idx → BitVec 32) (K : Nat) : S2048x20.Idx → BitVec 1 := fun j => dupBit tg K (j 0) (j 1)

/-- The scalar index `k` of a round, read signed. -/
theorem roundIdx_toInt (k : Nat) (hk : k < 20) :
    ((broadcastInDim S1 ![] bcast_S_S1 (constantI S_ 32 (BitVec.ofNat 32 k)) : IVec S1 32) (ix1 0)).toInt = k := by
  show (BitVec.ofNat 32 k).toInt = k
  exact StableHlo.Predicate.toInt_ofNat_small k (by omega)

/-- One round, the compared array `B` being any array that reads target `k` of its row everywhere: from the mask
    after round `k - 1`, the scatter of the row-wise or of "target `q` equals target `k`", `q < k`, into column `k`
    is the mask after round `k`. -/
theorem round_core (k : Nat) (hk : k < 20) (hs1 : S2048x20.Slices ![0, 0] ⟨2, ![2048, k]⟩)
    (hr : (⟨2, ![2048, k]⟩ : Shape).ReducesTo [1] S2048) (tg : St.Idx → BitVec 32) (B : IVec ⟨2, ![2048, k]⟩ 32)
    (hB : ∀ r q, B (ix2 r q) = tg (ix2 r ⟨k, hk⟩)) (x : S2048x20.Idx → BitVec 1) (hx : x = dupMask tg (k - 1)) :
    Host.scatter scatter_S2048x20_S1_S2048_0_1_1_0 (fun _ b => b) x
        (broadcastInDim S1 ![] bcast_S_S1 (constantI S_ 32 (BitVec.ofNat 32 k)))
        (Host.reduce IntOp.ori (cmpi .eq (extractStridedSlice ⟨2, ![2048, k]⟩ ![0, 0] tg hs1) B) (constantI S_ 1 0#1) hr h_S_)
      = dupMask tg k := by
  subst hx
  funext j
  obtain ⟨r, t, rfl⟩ : ∃ r t, j = ix2 r t := ⟨j 0, j 1, eq_ix2 j⟩
  rw [colScatter_apply _ _ _ ⟨k, hk⟩ (roundIdx_toInt k hk) r t]
  show _ = dupBit tg k r t
  have hred : Host.reduce IntOp.ori (cmpi .eq (extractStridedSlice ⟨2, ![2048, k]⟩ ![0, 0] tg hs1) B) (constantI S_ 1 0#1) hr h_S_ (ix1 r) = 1#1
      ↔ ∃ s : Fin 20, s < (⟨k, hk⟩ : Fin 20) ∧ tg (ix2 r s) = tg (ix2 r ⟨k, hk⟩) := by
    rw [reduce_ori_cols]
    constructor
    · rintro ⟨q, hq⟩
      have e : extractStridedSlice ⟨2, ![2048, k]⟩ ![0, 0] tg hs1 (ix2 r q) = B (ix2 r q) := IntOp.cmpi_eq.1 hq
      rw [sliceCols_apply k (by omega) hs1 tg r q, hB] at e
      exact ⟨⟨q.val, by omega⟩, q.isLt, e⟩
    · rintro ⟨s, hs, e⟩
      refine ⟨⟨s.val, hs⟩, ?_⟩
      show IntOp.cmpi .eq (extractStridedSlice ⟨2, ![2048, k]⟩ ![0, 0] tg hs1 (ix2 r ⟨s.val, hs⟩)) (B (ix2 r ⟨s.val, hs⟩)) = 1#1
      rw [IntOp.cmpi_eq, sliceCols_apply k (by omega) hs1 tg r ⟨s.val, hs⟩, hB]
      exact e
  by_cases htk : t = ⟨k, hk⟩
  · subst htk
    rw [if_pos rfl]
    unfold dupBit
    by_cases hd : ∃ s : Fin 20, s < (⟨k, hk⟩ : Fin 20) ∧ tg (ix2 r s) = tg (ix2 r ⟨k, hk⟩)
    · rw [if_pos ⟨le_refl _, hd⟩]; exact hred.2 hd
    · rw [if_neg (fun h => hd h.2)]; exact eq_zero_of_ne_one (fun h1 => hd (hred.1 h1))
  · rw [if_neg htk]
    show dupBit tg (k - 1) r t = dupBit tg k r t
    unfold dupBit
    have hne : t.val ≠ k := fun e => htk (Fin.ext e)
    have hiff : (t.val ≤ k - 1) ↔ (t.val ≤ k) := by omega
    exact if_congr (and_congr hiff Iff.rfl) rfl rfl

/-- A round whose compared array is the broadcast of column `k` (rounds 2 to 19). -/
theorem round_bcast (k : Nat) (hk : k < 20) (hs1 : S2048x20.Slices ![0, 0] ⟨2, ![2048, k]⟩)
    (hs2 : S2048x20.Slices ![0, k] S2048x1) (hb : S2048x1.BroadcastsInDim ⟨2, ![2048, k]⟩ ![0, 1])
    (hr : (⟨2, ![2048, k]⟩ : Shape).ReducesTo [1] S2048) (tg : St.Idx → BitVec 32)
    (x : S2048x20.Idx → BitVec 1) (hx : x = dupMask tg (k - 1)) :
    Host.scatter scatter_S2048x20_S1_S2048_0_1_1_0 (fun _ b => b) x
        (broadcastInDim S1 ![] bcast_S_S1 (constantI S_ 32 (BitVec.ofNat 32 k)))
        (Host.reduce IntOp.ori (cmpi .eq (extractStridedSlice ⟨2, ![2048, k]⟩ ![0, 0] tg hs1)
          (broadcastInDim ⟨2, ![2048, k]⟩ ![0, 1] hb (extractStridedSlice S2048x1 ![0, k] tg hs2))) (constantI S_ 1 0#1) hr h_S_)
      = dupMask tg k :=
  round_core k hk hs1 hr tg _ (fun r q => by rw [bcastCol_apply, sliceCol_apply k hk]) x hx

/-- Round 1, whose compared array is column 1 itself. -/
theorem round_one (hs1 : S2048x20.Slices ![0, 0] S2048x1) (hs2 : S2048x20.Slices ![0, 1] S2048x1)
    (hr : S2048x1.ReducesTo [1] S2048) (tg : St.Idx → BitVec 32)
    (x : S2048x20.Idx → BitVec 1) (hx : x = dupMask tg 0) :
    Host.scatter scatter_S2048x20_S1_S2048_0_1_1_0 (fun _ b => b) x
        (broadcastInDim S1 ![] bcast_S_S1 (constantI S_ 32 1#32))
        (Host.reduce IntOp.ori (cmpi .eq (extractStridedSlice S2048x1 ![0, 0] tg hs1)
          (extractStridedSlice S2048x1 ![0, 1] tg hs2)) (constantI S_ 1 0#1) hr h_S_)
      = dupMask tg 1 :=
  round_core 1 (by omega) hs1 hr tg _ (fun r q => sliceCol_apply 1 (by omega) hs2 tg r q) x hx

/-- Before the first round the mask is 0 everywhere. -/
theorem dupMask_zero (tg : St.Idx → BitVec 32) :
    broadcastInDim S2048x20 ![] bcast_S_S2048x20 (constantI S_ 1 0#1) = dupMask tg 0 := by
  funext j
  show (0#1 : BitVec 1) = dupBit tg 0 (j 0) (j 1)
  unfold dupBit
  rw [if_neg]
  rintro ⟨h0, s, hs, -⟩
  exact absurd hs (by have : (j 1).val = 0 := by omega
                      intro h; have := Fin.lt_def.1 h; omega)

/-! ## The last operation, and the run -/

open Classical in
/-- The negation of the mask after the last round: 1 exactly at the first occurrences. Under the range hypothesis
    two targets name the same column exactly when they are the same word. -/
theorem noti_dupMask (tg : St.Idx → BitVec 32) (h : ∀ j, (tg j).toNat < 32000) :
    noti (dupMask tg 19) = fun j => if firstOcc tg (j 0) (j 1) then 1#1 else 0#1 := by
  funext j
  show ~~~(dupBit tg 19 (j 0) (j 1)) = _
  have hcol : ∀ (r : Fin 2048) (s t : Fin 20), col tg r s = col tg r t ↔ tg (ix2 r s) = tg (ix2 r t) := by
    intro r s t
    constructor
    · intro e
      have e' : (tg (ix2 r s)).toNat % 32000 = (tg (ix2 r t)).toNat % 32000 := congrArg Fin.val e
      rw [Nat.mod_eq_of_lt (h _), Nat.mod_eq_of_lt (h _)] at e'
      exact BitVec.eq_of_toNat_eq e'
    · intro e
      exact Fin.ext (show (tg (ix2 r s)).toNat % 32000 = (tg (ix2 r t)).toNat % 32000 by rw [e])
  have hfo : firstOcc tg (j 0) (j 1) ↔ ¬ ∃ s : Fin 20, s < j 1 ∧ tg (ix2 (j 0) s) = tg (ix2 (j 0) (j 1)) := by
    constructor
    · rintro hf ⟨s, hs, e⟩; exact hf s hs ((hcol _ _ _).2 e)
    · intro hn s hs e; exact hn ⟨s, hs, (hcol _ _ _).1 e⟩
  unfold dupBit
  by_cases hd : ∃ s : Fin 20, s < j 1 ∧ tg (ix2 (j 0) s) = tg (ix2 (j 0) (j 1))
  · rw [if_pos ⟨Nat.lt_succ_iff.1 (idx2_lt1 j), hd⟩, if_neg (fun hf => hfo.1 hf hd)]; rfl
  · rw [if_neg (fun hh => hd hh.2), if_pos (hfo.2 hd)]; rfl

set_option maxRecDepth 16384 in
set_option maxHeartbeats 4000000 in
open Classical in
/-- After the long stretch of host operations, the negated duplicate mask at `(r, t)` is 1 exactly when target `t` is
    the first of row `r` to name its column: round `k` writes into column `k` whether some earlier target of the row equals
    target `k`, column 0 keeps the initial 0, and the last operation negates. -/
theorem mask_value (W : Valuation τ sig (Elt Ideal)) (tg : St.Idx → BitVec 32)
    (ht : W (Proc.devRef .tc main_arg1) = tg) (h : ∀ j, (tg j).toNat < 32000) :
    StableHlo.after (hostOps1_4 (F := Ideal)) W (Proc.devRef .tc main_v137)
      = fun j => if firstOcc tg (j 0) (j 1) then 1#1 else 0#1 := by
  have e0 := dupMask_zero tg
  have e1 := round_one slices_S2048x20_S2048x1_0_0 slices_S2048x20_S2048x1_0_1 reducesTo_S2048x1_S2048_d1 tg _ e0
  have e2 := round_bcast 2 (by omega) slices_S2048x20_S2048x2_0_0 slices_S2048x20_S2048x1_0_2 bcast_S2048x1_S2048x2_0_1 reducesTo_S2048x2_S2048_d1 tg _ e1
  have e3 := round_bcast 3 (by omega) slices_S2048x20_S2048x3_0_0 slices_S2048x20_S2048x1_0_3 bcast_S2048x1_S2048x3_0_1 reducesTo_S2048x3_S2048_d1 tg _ e2
  have e4 := round_bcast 4 (by omega) slices_S2048x20_S2048x4_0_0 slices_S2048x20_S2048x1_0_4 bcast_S2048x1_S2048x4_0_1 reducesTo_S2048x4_S2048_d1 tg _ e3
  have e5 := round_bcast 5 (by omega) slices_S2048x20_S2048x5_0_0 slices_S2048x20_S2048x1_0_5 bcast_S2048x1_S2048x5_0_1 reducesTo_S2048x5_S2048_d1 tg _ e4
  have e6 := round_bcast 6 (by omega) slices_S2048x20_S2048x6_0_0 slices_S2048x20_S2048x1_0_6 bcast_S2048x1_S2048x6_0_1 reducesTo_S2048x6_S2048_d1 tg _ e5
  have e7 := round_bcast 7 (by omega) slices_S2048x20_S2048x7_0_0 slices_S2048x20_S2048x1_0_7 bcast_S2048x1_S2048x7_0_1 reducesTo_S2048x7_S2048_d1 tg _ e6
  have e8 := round_bcast 8 (by omega) slices_S2048x20_S2048x8_0_0 slices_S2048x20_S2048x1_0_8 bcast_S2048x1_S2048x8_0_1 reducesTo_S2048x8_S2048_d1 tg _ e7
  have e9 := round_bcast 9 (by omega) slices_S2048x20_S2048x9_0_0 slices_S2048x20_S2048x1_0_9 bcast_S2048x1_S2048x9_0_1 reducesTo_S2048x9_S2048_d1 tg _ e8
  have e10 := round_bcast 10 (by omega) slices_S2048x20_S2048x10_0_0 slices_S2048x20_S2048x1_0_10 bcast_S2048x1_S2048x10_0_1 reducesTo_S2048x10_S2048_d1 tg _ e9
  have e11 := round_bcast 11 (by omega) slices_S2048x20_S2048x11_0_0 slices_S2048x20_S2048x1_0_11 bcast_S2048x1_S2048x11_0_1 reducesTo_S2048x11_S2048_d1 tg _ e10
  have e12 := round_bcast 12 (by omega) slices_S2048x20_S2048x12_0_0 slices_S2048x20_S2048x1_0_12 bcast_S2048x1_S2048x12_0_1 reducesTo_S2048x12_S2048_d1 tg _ e11
  have e13 := round_bcast 13 (by omega) slices_S2048x20_S2048x13_0_0 slices_S2048x20_S2048x1_0_13 bcast_S2048x1_S2048x13_0_1 reducesTo_S2048x13_S2048_d1 tg _ e12
  have e14 := round_bcast 14 (by omega) slices_S2048x20_S2048x14_0_0 slices_S2048x20_S2048x1_0_14 bcast_S2048x1_S2048x14_0_1 reducesTo_S2048x14_S2048_d1 tg _ e13
  have e15 := round_bcast 15 (by omega) slices_S2048x20_S2048x15_0_0 slices_S2048x20_S2048x1_0_15 bcast_S2048x1_S2048x15_0_1 reducesTo_S2048x15_S2048_d1 tg _ e14
  have e16 := round_bcast 16 (by omega) slices_S2048x20_S2048x16_0_0 slices_S2048x20_S2048x1_0_16 bcast_S2048x1_S2048x16_0_1 reducesTo_S2048x16_S2048_d1 tg _ e15
  have e17 := round_bcast 17 (by omega) slices_S2048x20_S2048x17_0_0 slices_S2048x20_S2048x1_0_17 bcast_S2048x1_S2048x17_0_1 reducesTo_S2048x17_S2048_d1 tg _ e16
  have e18 := round_bcast 18 (by omega) slices_S2048x20_S2048x18_0_0 slices_S2048x20_S2048x1_0_18 bcast_S2048x1_S2048x18_0_1 reducesTo_S2048x18_S2048_d1 tg _ e17
  have e19 := round_bcast 19 (by omega) slices_S2048x20_S2048x19_0_0 slices_S2048x20_S2048x1_0_19 bcast_S2048x1_S2048x19_0_1 reducesTo_S2048x19_S2048_d1 tg _ e18
  have hrun : StableHlo.after (hostOps1_4 (F := Ideal)) W (Proc.devRef .tc main_v137) = noti (dupMask tg 19) := by
    after_results_simp
    rw [ht]
    exact congrArg noti e19
  rw [hrun]
  exact noti_dupMask tg h

end Cert.KernelIdeal.TailValue

end
-- ==== Proof.LibTakeAlong.lean ====
/-
  Taking one entry per position along the last axis of a two-axis array, row by row, with the start index clamped:
  the gather that take_along_axis(x, idx, axis = 1) of an [R × N] array at an [R × T] array of indices lowers to, read
  at an entry, for an ARBITRARY start index.

  The first axis is a batching axis of the operand and of the start indices (row r of the result reads row r of
  both), the last axis of the operand is collapsed and start-indexed, the start indices are carried as [R × T × 1]
  with the index vector on the last axis, and every slice has one element. Entry (r, t) of the result is then the
  operand's entry (r, col), where col is start index (r, t, 0) read as a signed integer and clamped to [0, N − 1]:
  a negative start index reads column 0, one past the end reads the last column. When the start index read signed is
  a column k < N the clamp is the identity and the entry read is column k of row r itself.
-/
import Idealize.ShloMosaic.Lib.ValueIdx

noncomputable section

namespace Cert.LibTakeAlong

open Idealize.ShloMosaic Idealize.ShloMosaic.ValueIdx

/-- Entry (r, t) of a row-by-row gather along the last of two axes is the operand's entry (r, col), col being start
    index (r, t, 0) read signed and clamped into [0, N − 1]. -/
theorem gather_rows_clamp_apply {α : Type} {R N T w : Nat}
    (d : GatherDims ⟨2, ![R, N]⟩ ⟨3, ![R, T, 1]⟩ ⟨2, ![R, T]⟩)
    (hoff : d.offsetDims = []) (hcol : d.collapsedSliceDims = [1]) (hob : d.operandBatchingDims = [0])
    (hsb : d.startIndicesBatchingDims = [0]) (hmap : d.startIndexMap = [1]) (hiv : d.indexVectorDim = 2)
    (hsl : d.sliceSizes = ![1, 1])
    (x : (⟨2, ![R, N]⟩ : Shape).Idx → α) (idx : IVec ⟨3, ![R, T, 1]⟩ w) (r : Fin R) (t : Fin T) (hN : 0 < N) :
    Host.gather d x idx (ix2 r t)
      = x (ix2 r (⟨min (idx (ix3 r t (0 : Fin 1))).toInt.toNat (N - 1), by omega⟩ : Fin N)) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: a batching axis, no start and no offset, so the operand's row is the result's row
    apply Fin.ext
    simp only [GatherDims.operandIdx]
    rw [GatherDims.start_batching _ _ _ _ (by simp),
      GatherDims.offCoord_eq_zero _ _ _ (by rw [GatherDims.mem_sKept]; simp)]
    unfold GatherDims.batchCoord
    rw [dif_pos (by simp)]
    simp only [Nat.zero_add, Nat.add_zero]
    rfl
  | ⟨1, _⟩ =>
    -- the last axis: collapsed and start-indexed, so the operand's column is the clamped start index alone
    apply Fin.ext
    simp only [GatherDims.operandIdx]
    rw [GatherDims.batchCoord_eq_zero _ _ _ (by simp),
      GatherDims.offCoord_eq_zero _ _ _ (by rw [GatherDims.mem_sKept]; simp)]
    unfold GatherDims.start
    rw [dif_pos (by simp)]
    -- the start index is read at (r, t, 0): r and t from the result's two batch axes, 0 on the index vector's axis
    generalize hX : GatherDims.siIdx _ (ix2 r t) _ = X
    have hX' : X = ix3 r t (0 : Fin 1) := by
      rw [← hX]
      funext b
      match b with
      | ⟨0, _⟩ => rfl
      | ⟨1, _⟩ => rfl
      | ⟨2, _⟩ => rfl
    rw [hX']
    rfl

/-- The clamp is the identity on a start index that, read signed, is a column k < N. -/
theorem clamp_eq_of_toInt {N w : Nat} (i : BitVec w) (k : Fin N) (hk : i.toInt = (k.val : Int)) :
    min i.toInt.toNat (N - 1) = k.val := by
  have := k.isLt
  rw [hk, Int.toNat_natCast]
  omega

/-- Start index in range: entry (r, t) is the operand's entry (r, k), k the start index read signed. -/
theorem gather_rows_apply_of_toInt {α : Type} {R N T w : Nat}
    (d : GatherDims ⟨2, ![R, N]⟩ ⟨3, ![R, T, 1]⟩ ⟨2, ![R, T]⟩)
    (hoff : d.offsetDims = []) (hcol : d.collapsedSliceDims = [1]) (hob : d.operandBatchingDims = [0])
    (hsb : d.startIndicesBatchingDims = [0]) (hmap : d.startIndexMap = [1]) (hiv : d.indexVectorDim = 2)
    (hsl : d.sliceSizes = ![1, 1])
    (x : (⟨2, ![R, N]⟩ : Shape).Idx → α) (idx : IVec ⟨3, ![R, T, 1]⟩ w) (r : Fin R) (t : Fin T) (k : Fin N)
    (hk : (idx (ix3 r t (0 : Fin 1))).toInt = (k.val : Int)) :
    Host.gather d x idx (ix2 r t) = x (ix2 r k) := by
  rw [gather_rows_clamp_apply d hoff hcol hob hsb hmap hiv hsl x idx r t (Nat.pos_of_ne_zero fun e => by
    have := k.isLt; omega)]
  exact congrArg (fun q => x (ix2 r q)) (Fin.ext (clamp_eq_of_toInt _ k hk))

end Cert.LibTakeAlong

end
-- ==== Proof.TailRest.lean ====
/-
  The kernel's result after the host operations that follow the region, as a real: the sum of the region's per-row
  output plus the sum of the corrections.

  The host operations come in seven stretches. The first sums the region's per-row output. The second takes, for each
  row and each target, the entry of the streamed array at the target's column: a target that is a column index is not
  negative as a signed word and passes the range test, so the gather reads exactly that entry and the fill value is
  never chosen. The third and fourth clip the entry to `[ε, 1]`; for an entry below 1 that is the clipped probability, a
  real in `[ε, 1)`. The fifth computes the first-occurrence mask and, from the probability, the two branches of the loss
  and their difference: both logarithms are of positive reals. The sixth keeps the difference where the mask is set
  and zero elsewhere, which is the correction. The seventh sums the corrections and adds the two sums.
-/
import proofs.«418686_j77841987273461_2_alg».proof.Proof.TailMask
import proofs.«418686_j77841987273461_2_alg».proof.Proof.LibTakeAlong
import Idealize.ShloMosaic.PureOps.Ideal.Laws
import Idealize.ShloMosaic.Lib.IdealHost
import Idealize.ShloMosaic.Lib.StableHlo.Predicate

noncomputable section

open scoped BigOperators

namespace Cert.KernelIdeal.TailValue

open Cert.KernelIdeal Cert.KernelIdeal.Gen Cert.KernelIdeal.Fr Idealize.ShloMosaic Idealize.ShloMosaic.TcCoe Idealize.ShloMosaic.ValueIdx Cert.Focal

/-- A finite sum of reals read as extended reals is the real sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The first host sum: the region's per-row output, one real per row, summed over the 2048-by-1 array from zero. -/
theorem s0_v1 (V : Valuation τ sig (Elt Ideal)) (d : Fin 2048 → ℝ)
    (hd : V (Proc.devRef .tc main_v0) = fun i => ((d (i 0) : ℝ) : EReal)) :
    StableHlo.after (hostOps1 (F := Ideal)) V (Proc.devRef .tc main_v1)
      = fun _ => ((∑ r : Fin 2048, d r : ℝ) : EReal) := by
  after_results
  rw [hd]
  funext i
  simp only [Host.reduceAdd, Ideal.hostReduceAdd_def]
  rw [Ideal.hostReduceAdd_total reducesTo_S2048x1_S_d0_1 (fun b => b.elim0), constant_apply, Ideal.ofBits_zero_f32,
    zero_add, sum_idx2]
  simp only [Fin.sum_univ_one]
  exact coe_sum Finset.univ d

/-- A left fold by `and` over one-bit words from 1 that meets only 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from 1 of an array of one-bit words that are all 1 is 1 at every index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A target that is a column index is not negative as a signed word, so the wrap of negative indices leaves it. -/
theorem wrap_eq (w : BitVec 32) (hw : w.toNat < 32000) :
    Scalar.select (IntOp.cmpi .slt w 0#32) (IntOp.addi w 32000#32) w = w := by
  have h0 : ¬ IntOp.cmpi .slt w 0#32 = 1#1 := by
    rw [StableHlo.Predicate.slt_iff_toNat (by omega) (by decide)]
    exact Nat.not_lt_zero _
  rw [eq_zero_of_ne_one h0, select_zero]

/-- A target that is a column index passes the range test `0 ≤ w ≤ 31999`. -/
theorem inrange (w : BitVec 32) (hw : w.toNat < 32000) :
    IntOp.andi (IntOp.cmpi .sge w 0#32) (IntOp.cmpi .sle w 31999#32) = 1#1 := by
  refine IntOp.andi_eq_one.2 ⟨?_, ?_⟩
  · rw [StableHlo.Predicate.sge_iff_toNat (by omega) (by decide)]; exact Nat.zero_le _
  · rw [StableHlo.Predicate.sle_iff_toNat (by omega) (by decide)]
    show w.toNat ≤ 31999
    omega

/-- The take along the columns, from start indices that are the targets: every start index passes the range test, so the
    fill value is never chosen, and the gather reads row `r` at the column target `t` names. -/
theorem take_of_idx (x : Sx.Idx → EReal) (tg : St.Idx → BitVec 32) (h : ∀ j, (tg j).toNat < 32000)
    (idx lo hi : IVec S2048x20x1 32) (hidx : ∀ i, idx i = tg (ix2 (i 0) (i 1))) (hlo : ∀ i, lo i = 0#32)
    (hhi : ∀ i, hi i = 31999#32) (fill : S2048x20.Idx → EReal) :
    select (Host.reduce IntOp.andi (andi (cmpi .sge idx lo) (cmpi .sle idx hi)) (constantI S_ 1 1#1)
        reducesTo_S2048x20x1_S2048x20_d2 h_S_)
      (Host.gather gather_S2048x32000_S2048x20x1_S2048x20_n_1_0_0_1_2_11 x idx) fill
      = fun j => x (ix2 (j 0) (col tg (j 0) (j 1))) := by
  funext j
  obtain ⟨r, t, rfl⟩ : ∃ r t, j = ix2 r t := ⟨j 0, j 1, eq_ix2 j⟩
  rw [select_apply]
  have hm : Host.reduce IntOp.andi (andi (cmpi .sge idx lo) (cmpi .sle idx hi)) (constantI S_ 1 1#1)
      reducesTo_S2048x20x1_S2048x20_d2 h_S_ (ix2 r t) = 1#1 :=
    reduce_andi_of_all _ _ _ _ _ rfl fun i => by
      show IntOp.andi (IntOp.cmpi .sge (idx i) (lo i)) (IntOp.cmpi .sle (idx i) (hi i)) = 1#1
      rw [hidx, hlo, hhi]; exact inrange _ (h _)
  rw [hm, select_one]
  refine Cert.LibTakeAlong.gather_rows_apply_of_toInt gather_S2048x32000_S2048x20x1_S2048x20_n_1_0_0_1_2_11
    rfl rfl rfl rfl rfl rfl rfl x idx r t (col tg r t) ?_
  rw [hidx]
  show (tg (ix2 r t)).toInt = (((tg (ix2 r t)).toNat % 32000 : ℕ) : Int)
  rw [StableHlo.Predicate.toInt_eq_toNat_of_lt (by have := h (ix2 r t); omega), Nat.mod_eq_of_lt (h _)]

set_option maxHeartbeats 4000000 in
/-- The take along the columns, as the host computes it: the clipped-index gather of the streamed array at the targets. -/
theorem s1_v2 (V : Valuation τ sig (Elt Ideal)) (x : Sx.Idx → EReal) (tg : St.Idx → BitVec 32)
    (hx : V (Proc.devRef .tc main_arg0) = x) (ht : V (Proc.devRef .tc main_arg1) = tg) (h : ∀ j, (tg j).toNat < 32000) :
    StableHlo.after (hostOps1_1 (F := Ideal)) V (Proc.devRef .tc main_v2)
      = fun j => x (ix2 (j 0) (col tg (j 0) (j 1))) := by
  after_results_simp
  rw [hx, ht]
  simp only [StableHlo.TRef.ofBuf, StableHlo.TRef.toBuf, cast_eq]
  refine take_of_idx x tg h _ _ _ (fun i => ?_) (fun _ => rfl) (fun _ => rfl) _
  have h2 : (i 2).val = 0 := by have := (i 2).isLt; simpa using this
  refine (shapeCast_apply (t := S2048x20x1) _ _ i (ix2 (i 0) (i 1)) ?_).trans (wrap_eq _ (h _))
  rw [Shape.rowMajor_val_two, Shape.rowMajor_val_three, h2]
  simp

/-- The lower clip's word is the binary32 number `11258999 / 2^50`. -/
theorem ofBits_eps : Ideal.ofBits .f32 0x322BCC77#32 = ((epsR : ℝ) : EReal) := by
  unfold epsR
  simp [Ideal.ofBits, Ideal.ieee, -EReal.coe_mul]; norm_num

/-- The word of one quarter. -/
theorem ofBits_quarter : Ideal.ofBits .f32 0x3E800000#32 = (((1 : ℝ) / 4 : ℝ) : EReal) := by
  simp [Ideal.ofBits, Ideal.ieee, -EReal.coe_mul]; norm_num

/-- The word of three quarters. -/
theorem ofBits_three_quarters : Ideal.ofBits .f32 0x3F400000#32 = (((3 : ℝ) / 4 : ℝ) : EReal) := by
  simp [Ideal.ofBits, Ideal.ieee, -EReal.coe_mul]; norm_num

set_option maxHeartbeats 4000000 in
/-- The clip: the two constants, then the maximum with the lower one and the minimum with 1, entry by entry. -/
theorem s23_v3 (V : Valuation τ sig (Elt Ideal)) (p : S2048x20.Idx → EReal) (hp : V (Proc.devRef .tc main_v2) = p) :
    StableHlo.after (hostOps1_3 (F := Ideal)) (StableHlo.after (hostOps1_2 (F := Ideal)) V) (Proc.devRef .tc main_v3)
      = fun j => min 1 (max ((epsR : ℝ) : EReal) (p j)) := by
  after_results_simp
  rw [hp]
  simp only [StableHlo.TRef.ofBuf, StableHlo.TRef.toBuf, cast_eq]
  funext j
  show min (Ideal.ofBits .f32 0x3F800000#32) (max (Ideal.ofBits .f32 0x322BCC77#32) (p j)) = _
  rw [Ideal.ofBits_one_f32, ofBits_eps]

set_option maxHeartbeats 4000000 in
/-- The two branches of the loss at a probability in `[ε, 1)`, and their difference: every logarithm is of a positive
    real, so every intermediate value is a real. -/
theorem s4_v156 (V : Valuation τ sig (Elt Ideal)) (q : S2048x20.Idx → ℝ) (hq : ∀ j, epsR ≤ q j ∧ q j < 1)
    (hp : V (Proc.devRef .tc main_v3) = fun j => ((q j : ℝ) : EReal)) :
    StableHlo.after (hostOps1_4 (F := Ideal)) V (Proc.devRef .tc main_v156)
      = fun j => ((posC (q j) - negC (q j) : ℝ) : EReal) := by
  after_results_simp
  rw [hp]
  funext j
  obtain ⟨hlo, hhi⟩ := hq j
  have hpos : 0 < q j := lt_of_lt_of_le epsR_pos hlo
  have h1pos : 0 < 1 - q j := sub_pos.2 hhi
  show (Ideal.ofBits .f32 0x3E800000#32 * (Ideal.ofBits .f32 0x3F800000#32 - ((q j : ℝ) : EReal))
          * (Ideal.ofBits .f32 0x3F800000#32 - ((q j : ℝ) : EReal))) * (-(Ideal.log ((q j : ℝ) : EReal)))
      - (Ideal.ofBits .f32 0x3F400000#32 * (((q j : ℝ) : EReal) * ((q j : ℝ) : EReal)))
          * (-(Ideal.log (Ideal.ofBits .f32 0x3F800000#32 - ((q j : ℝ) : EReal)))) = _
  rw [Ideal.ofBits_one_f32, ofBits_quarter, ofBits_three_quarters]
  have e1 : (1 : EReal) - ((q j : ℝ) : EReal) = ((1 - q j : ℝ) : EReal) := by rw [EReal.coe_sub, EReal.coe_one]
  rw [e1, Ideal.log_coe, Ideal.log_coe, if_neg (not_le.2 hpos), if_neg (not_le.2 h1pos)]
  unfold posC negC
  simp only [← EReal.coe_mul, ← EReal.coe_neg, ← EReal.coe_sub]

set_option maxHeartbeats 4000000 in
/-- The zero the masked entries are replaced by. -/
theorem s4_cst45 (V : Valuation τ sig (Elt Ideal)) :
    StableHlo.after (hostOps1_4 (F := Ideal)) V (Proc.devRef .tc main_cst_45) = fun _ => (0 : EReal) := by
  after_results_simp
  funext i
  exact Ideal.ofBits_zero_f32

set_option maxHeartbeats 4000000 in
/-- The first host sum's result is written by none of the four stretches between it and the masked select. -/
theorem v1_kept (V : Valuation τ sig (Elt Ideal)) :
    StableHlo.after (hostOps1_4 (F := Ideal)) (StableHlo.after (hostOps1_3 (F := Ideal))
      (StableHlo.after (hostOps1_2 (F := Ideal)) (StableHlo.after (hostOps1_1 (F := Ideal)) V))) (Proc.devRef .tc main_v1)
      = V (Proc.devRef .tc main_v1) := by
  after_results_simp

set_option maxHeartbeats 4000000 in
/-- The masked select, the second host sum and the final addition: from the mask `m`, the differences `c`, the zero and
    the first sum `a`, whenever the selected value at each entry is the real `w j`. -/
theorem s56_v159 (V : Valuation τ sig (Elt Ideal)) (m : S2048x20.Idx → BitVec 1) (c : S2048x20.Idx → EReal)
    (w : S2048x20.Idx → ℝ) (a : ℝ) (hm : V (Proc.devRef .tc main_v137) = m) (hc : V (Proc.devRef .tc main_v156) = c)
    (hz : V (Proc.devRef .tc main_cst_45) = fun _ => (0 : EReal)) (ha : V (Proc.devRef .tc main_v1) = fun _ => ((a : ℝ) : EReal))
    (hw : ∀ j, Scalar.select (m j) (c j) 0 = ((w j : ℝ) : EReal)) :
    StableHlo.after (hostOps1_6 (F := Ideal)) (StableHlo.after (hostOps1_5 (F := Ideal)) V) (Proc.devRef .tc main_v159)
      = fun _ => ((a + ∑ r : Fin 2048, ∑ t : Fin 20, w (ix2 r t) : ℝ) : EReal) := by
  after_results_simp
  rw [hm, hc, hz, ha]
  simp only [StableHlo.TRef.ofBuf, StableHlo.TRef.toBuf, cast_eq]
  funext i
  rw [addf_apply]
  simp only [Host.reduceAdd, Ideal.hostReduceAdd_def]
  rw [Ideal.hostReduceAdd_total reducesTo_S2048x20_S_d0_1 (fun b => b.elim0), constant_apply, Ideal.ofBits_zero_f32,
    zero_add, sum_idx2, EReal.coe_add, ← coe_sum]
  refine congrArg (((a : ℝ) : EReal) + ·) (Finset.sum_congr rfl fun r _ => ?_)
  rw [← coe_sum]
  exact Finset.sum_congr rfl fun t _ => hw (ix2 r t)

/-- A buffer none of a stretch's operations writes keeps its contents: the three argument-like buffers. -/
theorem keeps_after {ops : List (HloOp τ sig (Elt Ideal))} (hk : ops.Forall fun op => Keeps op)
    (V : Valuation τ sig (Elt Ideal)) :
    StableHlo.after ops V (Proc.devRef .tc main_arg0) = V (Proc.devRef .tc main_arg0)
      ∧ StableHlo.after ops V (Proc.devRef .tc main_arg1) = V (Proc.devRef .tc main_arg1)
      ∧ StableHlo.after ops V (Proc.devRef .tc main_v0) = V (Proc.devRef .tc main_v0) :=
  ⟨StableHlo.after_of_forall_not_mem ops V fun op hop => (List.forall_iff_forall_mem.mp hk op hop).1,
   StableHlo.after_of_forall_not_mem ops V fun op hop => (List.forall_iff_forall_mem.mp hk op hop).2.1,
   StableHlo.after_of_forall_not_mem ops V fun op hop => (List.forall_iff_forall_mem.mp hk op hop).2.2⟩

/-- Under the domain the clip of an entry is the clipped probability, a real. -/
theorem clip_eq {x : Sx.Idx → EReal} {tg : St.Idx → BitVec 32} (h : Dom x tg) (r : Fin 2048) (v : Fin 32000) :
    min (1 : EReal) (max ((epsR : ℝ) : EReal) (x (ix2 r v))) = ((prob x r v : ℝ) : EReal) := by
  obtain ⟨a, ha, ha1⟩ := h.real (ix2 r v)
  have hp : prob x r v = max epsR a := by unfold prob; rw [ha, EReal.toReal_coe]
  rw [ha, hp, ← EReal.coe_strictMono.monotone.map_max, min_eq_right]
  rw [← EReal.coe_one, EReal.coe_le_coe_iff]
  exact le_of_lt (max_lt epsR_lt_one ha1)

/-- From a memory holding the streamed array `x`, the targets `tg` and, in the region's output array, the reals `d r`
    row by row: the host operations after the region leave in the result buffer the constant
    `(Σ_r d r) + Σ_r Σ_t corr x tg r t` — the gather reads the clipped probability at each target's column, the mask keeps
    first occurrences, every logarithm's argument is a positive real, the two host sums are sums of reals. -/
theorem tail_value (W : Valuation τ sig (Elt Ideal)) (x : Sx.Idx → EReal) (tg : St.Idx → BitVec 32) (d : Fin 2048 → ℝ)
    (hx : W (Proc.devRef .tc main_arg0) = x) (ht : W (Proc.devRef .tc main_arg1) = tg)
    (hd : W (Proc.devRef .tc main_v0) = fun i => ((d (i 0) : ℝ) : EReal)) (h : Dom x tg) :
    StableHlo.after (tailOps (F := Ideal)).flatten W (Proc.devRef .tc main_v159)
      = fun _ => (((∑ r : Fin 2048, d r) + ∑ r : Fin 2048, ∑ t : Fin 20, corr x tg r t : ℝ) : EReal) := by
  have hfl : (tailOps (F := Ideal)).flatten
      = hostOps1 ++ (hostOps1_1 ++ (hostOps1_2 ++ (hostOps1_3 ++ (hostOps1_4 ++ (hostOps1_5 ++ hostOps1_6))))) := by
    simp only [tailOps, List.flatten_cons, List.flatten_nil, List.append_nil]
  rw [hfl]
  simp only [StableHlo.after_append]
  -- the memories between the stretches
  generalize hW1 : StableHlo.after (hostOps1 (F := Ideal)) W = W1
  generalize hW2 : StableHlo.after (hostOps1_1 (F := Ideal)) W1 = W2
  generalize hW3 : StableHlo.after (hostOps1_2 (F := Ideal)) W2 = W3
  generalize hW4 : StableHlo.after (hostOps1_3 (F := Ideal)) W3 = W4
  generalize hW5 : StableHlo.after (hostOps1_4 (F := Ideal)) W4 = W5
  -- the arguments reach the stretches that read them
  have k1 := keeps_after hostOps1_keeps W; rw [hW1] at k1
  have k2 := keeps_after hostOps1_1_keeps W1; rw [hW2] at k2
  have k3 := keeps_after hostOps1_2_keeps W2; rw [hW3] at k3
  have k4 := keeps_after hostOps1_3_keeps W3; rw [hW4] at k4
  have hx1 : W1 (Proc.devRef .tc main_arg0) = x := k1.1.trans hx
  have ht1 : W1 (Proc.devRef .tc main_arg1) = tg := k1.2.1.trans ht
  have ht4 : W4 (Proc.devRef .tc main_arg1) = tg := k4.2.1.trans (k3.2.1.trans (k2.2.1.trans ht1))
  -- the first sum, and that it reaches the final addition
  have hv1 : W1 (Proc.devRef .tc main_v1) = fun _ => ((∑ r : Fin 2048, d r : ℝ) : EReal) := by
    rw [← hW1]; exact s0_v1 W d hd
  have hv1' : W5 (Proc.devRef .tc main_v1) = W1 (Proc.devRef .tc main_v1) := by
    rw [← hW5, ← hW4, ← hW3, ← hW2]; exact v1_kept W1
  -- the gathered entries, clipped: the probabilities at the targets
  have hv2 : W2 (Proc.devRef .tc main_v2) = fun j => x (ix2 (j 0) (col tg (j 0) (j 1))) := by
    rw [← hW2]; exact s1_v2 W1 x tg hx1 ht1 h.idx
  have hv3 : W4 (Proc.devRef .tc main_v3) = fun j => ((prob x (j 0) (col tg (j 0) (j 1)) : ℝ) : EReal) := by
    rw [← hW4, ← hW3, s23_v3 W2 _ hv2]
    funext j; exact clip_eq h _ _
  -- the mask, the differences of the two branches, and the zero
  have hm := mask_value W4 tg ht4 h.idx; rw [hW5] at hm
  have hc := s4_v156 W4 _ (fun j => prob_mem h (j 0) (col tg (j 0) (j 1))) hv3; rw [hW5] at hc
  have hz := s4_cst45 W4; rw [hW5] at hz
  rw [s56_v159 W5 _ _ (fun j => corr x tg (j 0) (j 1)) (∑ r : Fin 2048, d r) hm hc hz (hv1'.trans hv1) fun j => ?_]
  by_cases hf : firstOcc tg (j 0) (j 1)
  · rw [if_pos hf, select_one, corr_of_first hf]
  · rw [if_neg hf, select_zero, corr_of_not_first hf, EReal.coe_zero]

end Cert.KernelIdeal.TailValue

end
-- ==== Proof.IdealPieces.lean ====
/-
  What each case of the kernel body leaves, as a function of what it loaded.

  The run of a case names what it leaves in the accumulator (and, at the last column block, in the output block) as the
  run's own stores read back. Here each is identified with the body's arithmetic: a middle or last column block leaves
  "previous accumulator plus this block's row sums" in the accumulator (the one store's payload, its two operands the
  two loads, each a load of a whole buffer); the last column block stores into the output block what it then loads back
  from the accumulator, the same term; the first column block leaves the same term over the zero block (it stores zeros,
  loads them back, and stores zeros plus the row sums: the later store covers the earlier).
-/
import proofs.«418686_j77841987273461_2_alg».proof.Proof.IdealFrame
import Idealize.ShloMosaic.Lib.Pipeline.Value
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The offsets of every load and store of the body are zero: each reads or writes its buffer whole. -/
theorem hz2 : (![0, 0] : Fin 2 → Nat) = fun _ => 0 := by funext a; fin_cases a <;> rfl

/-- Middle column block: the accumulator ends at the previous accumulator plus the block's row sums. -/
theorem sout0_B_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : ¬cond0_1 i) (x0 : Vec F S256x6400 .f32) (xs0 : Vec F S256x1 .f32) :
    sout0_B_0 (F := F) c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (S := S256x1) hz2]
  simp only [View.readAt_eq_ld, harg2.read_unread, harg4.read_unread, View.ld_unit_zero (S := S256x6400) hz2, View.ld_unit_zero (S := S256x1) hz2]

/-- Last column block: the same for the accumulator. -/
theorem sout0_C_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i) (x0 : Vec F S256x6400 .f32) (xs0 : Vec F S256x1 .f32) :
    sout0_C_0 (F := F) c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S256x1) hz2]
  simp only [View.readAt_eq_ld, harg2.read_unread, harg4.read_unread, View.ld_unit_zero (S := S256x6400) hz2, View.ld_unit_zero (S := S256x1) hz2]

/-- Last column block: the output block holds what the accumulator ends at. -/
theorem out0_C_1_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : ¬cond0_0 i) (hc1 : cond0_1 i) (x0 : Vec F S256x6400 .f32) (xs0 : Vec F S256x1 .f32) :
    out0_C_1 (F := F) c i arg2 harg2 arg3 harg3 arg4 harg4 hc0 hc1 x0 xs0 = k0_pay2 x0 xs0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S256x1) hz2, View.readCov_unit_zero (S := S256x1) _ hz2]
  simp only [View.readAt_eq_ld, harg2.read_unread, harg4.read_unread, View.ld_unit_zero (S := S256x6400) hz2, View.ld_unit_zero (S := S256x1) hz2]

/-- First column block: the accumulator ends at zeros plus the block's row sums, whatever it held. -/
theorem sout0_A_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (hc0 : cond0_0 i) (hc1 : ¬cond0_1 i) (x0 : Vec F S256x6400 .f32) :
    sout0_A_0 (F := F) c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S256x1) hz2, View.readCov_unit_zero (S := S256x1) _ hz2]
  simp only [View.readAt_eq_ld, harg2.read_unread, View.ld_unit_zero (S := S256x6400) hz2]
end Cert.KernelIdeal.Fr
end
-- ==== Proof.RegionValue.lean ====
/-
  What the region leaves in its output array: row `r` holds the sum over all 32000 columns of the dense term at the
  clipped probability.

  The dense term of an entry `y` is `-3/4 · (q · q) · log (1 - q)` with `q = min 1 (max ε y)`. At a real `y < 1` the
  upper clip does not bind, `1 - q` is positive, and the term is the real `negK (max ε y)`. The grid is 8 row blocks by
  5 column blocks, point `t = 5 i + j`; the block streamed at `t` is rows `256 i …`, columns `6400 j …` of the array.
  The accumulator (256 by 1) after point `t` holds, in row `r`, the real sum over column blocks `0 … j` of row
  `256 i + r`: at `j = 0` it is zero plus the block's lane sum, later the previous contents plus the block's lane sum.
  Only `j = 4` writes back, and what it writes is the accumulator after that point, to rows `256 i …` of the one output
  column; those eight blocks tile the 2048 rows. Five blocks of 6400 columns are the 32000 columns, so the five block
  sums of a row are its dense row.
-/
import proofs.«418686_j77841987273461_2_alg».proof.Proof.IdealPieces
import proofs.«418686_j77841987273461_2_alg».proof.Proof.Spec
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Cert.KernelIdeal.Fr Idealize.ShloMosaic Idealize.ShloMosaic.TcCoe Idealize.ShloMosaic.ValueIdx Cert.Focal

/-! ## The three literals of the dense term, and the term itself at a real below 1 -/

/-- The lower clip's word is the binary32 number (2^23 + 2870391) · 2^(100 - 127 - 23). -/
theorem eps_word : Ideal.ofBits .f32 0x322BCC77#32 = ((epsR : ℝ) : EReal) := by
  unfold epsR; simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem coef_word : Ideal.ofBits .f32 0xBF400000#32 = ((-(3 / 4) : ℝ) : EReal) := by
  simp [Ideal.ofBits, Ideal.ieee, -EReal.coe_mul]; norm_num

/-- The kernel's dense term of one entry, over the extended reals: with `q` the entry clipped to `[ε, 1]`,
    `-3/4 · (q · q) · log (1 - q)`. -/
def denseE (y : EReal) : EReal :=
  Ideal.ofBits .f32 0xBF400000#32
      * (min (Ideal.ofBits .f32 0x3F800000#32) (max (Ideal.ofBits .f32 0x322BCC77#32) y)
        * min (Ideal.ofBits .f32 0x3F800000#32) (max (Ideal.ofBits .f32 0x322BCC77#32) y))
    * Ideal.log (Ideal.ofBits .f32 0x3F800000#32 - min (Ideal.ofBits .f32 0x3F800000#32) (max (Ideal.ofBits .f32 0x322BCC77#32) y))

/-- At a real below 1 the upper clip does not bind, `1 - q` is positive, so the logarithm is the real one and the
    whole term is the real `negK` of the entry clipped below. -/
theorem denseE_real (a : ℝ) (ha : a < 1) : denseE (a : EReal) = ((negK (max epsR a) : ℝ) : EReal) := by
  have hp : max epsR a < 1 := max_lt epsR_lt_one ha
  have hmax : max ((epsR : ℝ) : EReal) (a : EReal) = ((max epsR a : ℝ) : EReal) := (EReal.coe_strictMono.monotone.map_max).symm
  have hmin : min ((1 : ℝ) : EReal) ((max epsR a : ℝ) : EReal) = ((max epsR a : ℝ) : EReal) :=
    min_eq_right (EReal.coe_le_coe_iff.mpr hp.le)
  unfold denseE negK
  rw [eps_word, one_word, coef_word, hmax, hmin, ← EReal.coe_sub, Ideal.log_coe, if_neg (by linarith),
    ← EReal.coe_mul, ← EReal.coe_mul, ← EReal.coe_mul]

/-! ## Sums -/

/-- A finite sum of coerced reals is the coerced sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert k s hk ih => rw [Finset.sum_insert hk, Finset.sum_insert hk, ih, EReal.coe_add]

/-- Column `6400 · j + k` of the array, for block `j` of 5 and lane `k` of 6400. -/
def colOf (j : Fin 5) (k : Fin 6400) : Fin 32000 := ⟨6400 * j.val + k.val, by have := j.isLt; have := k.isLt; omega⟩

/-- The pairs (block, lane) are the columns. -/
def colEquiv : Fin 5 × Fin 6400 ≃ Fin 32000 := finProdFinEquiv.trans (finCongr (by norm_num))

theorem colEquiv_apply (j : Fin 5) (k : Fin 6400) : colEquiv (j, k) = colOf j k :=
  Fin.ext (by show k.val + 6400 * j.val = 6400 * j.val + k.val; omega)

/-- The 32000 columns are five blocks of 6400. -/
theorem sum_cols (f : Fin 32000 → ℝ) : ∑ v : Fin 32000, f v = ∑ j : Fin 5, ∑ k : Fin 6400, f (colOf j k) := by
  refine Eq.trans ?_ (Fintype.sum_prod_type' (fun (j : Fin 5) (k : Fin 6400) => f (colOf j k)))
  exact (Fintype.sum_equiv colEquiv (fun p => f (colOf p.1 p.2)) f fun p => congrArg f (colEquiv_apply p.1 p.2).symm).symm

/-! ## The update's payload at an index -/

/-- The lane sum at row `r` ranges over the indices `(r, k)`. -/
theorem lift_eq (r : Fin 256) (k : Fin 6400) : reduces_S256x6400_S256.lift (ix1 r) k = ix2 r k := by
  funext a; apply Fin.ext
  match a with
  | ⟨0, _⟩ => rfl
  | ⟨1, _⟩ => rfl

/-- The stored update at `(r, 0)`: the accumulator's entry plus the sum over the block's 6400 lanes of the dense term. -/
theorem upd_apply (x0 : Vec Ideal S256x6400 .f32) (acc : Vec Ideal S256x1 .f32) (r : Fin 256) :
    k0_pay2 (F := Ideal) x0 acc (ix2 r 0) = acc (ix2 r 0) + ∑ k : Fin 6400, denseE (x0 (ix2 r k)) := by
  unfold k0_pay2
  refine (congrFun (shapeCast_self _ _) (ix2 r 0)).trans ?_
  refine congrArg (fun z => acc (ix2 r 0) + z) ?_
  refine (shapeCast_apply _ _ (ix2 r 0) (ix1 r) ?_).trans ?_
  · rw [Shape.rowMajor_val_one, Shape.rowMajor_val_two]; show r.val = r.val * 1 + 0; omega
  refine (Ideal.multiReduction_add_single _ _ reduces_S256x6400_S256 (.inl rfl) rfl (ix1 r)).trans ?_
  show ∑ k : Fin 6400, _ = _
  refine Finset.sum_congr rfl fun k _ => ?_
  rw [lift_eq]
  rfl

/-- The reset's payload is zero everywhere. -/
theorem zeros_apply (j : S256x1.Idx) : k0_pay1 (F := Ideal) j = 0 := by
  unfold k0_pay1
  refine (congrFun (shapeCast_self _ _) j).trans ?_
  exact Ideal.ofBits_zero_f32

section Blocks

/-! ## Blocks of the streamed array -/

variable (m : (ℓ : Loc nD τ sig) → Buf (Elt Ideal) ℓ)

/-- The streamed array as the region finds it, and its block at a point, at their literal types. -/
abbrev xarr (c : Dev nD) : Vec Ideal S2048x32000 .f32 := V m c main_arg0
abbrev xblk (c : Dev nD) (t : Fin cfg0.N) : Vec Ideal S256x6400 .f32 := iblk m c 0 t

theorem xarr_eq (c : Dev nD) : xarr m c = m ((c : Thread nD τ).loc main_arg0) := V_main_arg0 m c

/-- Point `t = 5 i + j` streams row block `i`, column block `j`; it writes row block `i` of the one output column. -/
theorem in_index : ∀ t : Fin cfg0.N, win0_0.index t (0 : Fin 2) = t.val / 5 ∧ win0_0.index t (1 : Fin 2) = t.val % 5 :=
  (by decide +kernel : ∀ t : Fin grid0.N, win0_0.index t (0 : Fin 2) = t.val / 5 ∧ win0_0.index t (1 : Fin 2) = t.val % 5)
theorem out_index : ∀ t : Fin cfg0.N, win0_1.index t (0 : Fin 2) = t.val / 5 ∧ win0_1.index t (1 : Fin 2) = 0 :=
  (by decide +kernel : ∀ t : Fin grid0.N, win0_1.index t (0 : Fin 2) = t.val / 5 ∧ win0_1.index t (1 : Fin 2) = 0)

/-- Entry `(r, k)` of the block at point `t` is entry `(256 (t / 5) + r, 6400 (t % 5) + k)` of the array. -/
theorem blk_entry (c : Dev nD) (t : Fin cfg0.N) (r : Fin 256) (k : Fin 6400) (i : S2048x32000.Idx)
    (h0 : (i 0).val = 256 * (t.val / 5) + r.val) (h1 : (i 1).val = 6400 * (t.val % 5) + k.val) :
    xblk m c t (ix2 r k) = xarr m c i := by
  obtain ⟨e0, e1⟩ := in_index t
  unfold xblk iblk
  rw [View.read_apply]
  show V m c main_arg0 _ = V m c main_arg0 i
  congr 1
  funext a; apply Fin.ext
  match a with
  | ⟨0, _⟩ => show win0_0.index t (0 : Fin 2) * 256 + 1 * r.val = (i 0).val; rw [e0, h0]; omega
  | ⟨1, _⟩ => show win0_0.index t (1 : Fin 2) * 6400 + 1 * k.val = (i 1).val; rw [e1, h1]; omega

/-! ## The running sums, as reals -/

/-- The dense term of entry `(a, v)` of the array (zero outside it: never consulted). -/
def entry (x : Sx.Idx → EReal) (a v : ℕ) : ℝ := if h : a < 2048 ∧ v < 32000 then negK (prob x ⟨a, h.1⟩ ⟨v, h.2⟩) else 0
/-- Row `a`'s sum over column block `j`. -/
def blockSum (x : Sx.Idx → EReal) (a j : ℕ) : ℝ := ∑ k : Fin 6400, entry x a (6400 * j + k.val)
/-- Row `a`'s sum over its first `J` column blocks. -/
def partialRow (x : Sx.Idx → EReal) (a J : ℕ) : ℝ := ∑ j ∈ Finset.range J, blockSum x a j

/-- Every entry a real below 1: the dense term of a block entry is the coerced real one. -/
theorem dense_entry (c : Dev nD) (x : Sx.Idx → EReal) (hx : m ((c : Thread nD τ).loc main_arg0) = x)
    (h : ∀ i, ∃ a : ℝ, x i = (a : EReal) ∧ a < 1) (t : Fin cfg0.N) (r : Fin 256) (k : Fin 6400) :
    denseE (xblk m c t (ix2 r k)) = ((entry x (256 * (t.val / 5) + r.val) (6400 * (t.val % 5) + k.val) : ℝ) : EReal) := by
  have hN : t.val < 40 := lt_of_lt_of_eq t.isLt (show cfg0.N = 40 from N_0)
  have ha : 256 * (t.val / 5) + r.val < 2048 := by have := r.isLt; omega
  have hv : 6400 * (t.val % 5) + k.val < 32000 := by have := k.isLt; omega
  rw [blk_entry m c t r k (ix2 ⟨_, ha⟩ ⟨_, hv⟩) rfl rfl, xarr_eq, hx]
  obtain ⟨a, e, a1⟩ := h (ix2 ⟨_, ha⟩ ⟨_, hv⟩)
  rw [e, denseE_real a a1]
  unfold entry; rw [dif_pos ⟨ha, hv⟩]; unfold prob; rw [e, EReal.toReal_coe]

/-- So the block's lane sum at row `r` is the coerced block sum of the array's row. -/
theorem lane_sum (c : Dev nD) (x : Sx.Idx → EReal) (hx : m ((c : Thread nD τ).loc main_arg0) = x)
    (h : ∀ i, ∃ a : ℝ, x i = (a : EReal) ∧ a < 1) (t : Fin cfg0.N) (r : Fin 256) :
    ∑ k : Fin 6400, denseE (xblk m c t (ix2 r k)) = ((blockSum x (256 * (t.val / 5) + r.val) (t.val % 5) : ℝ) : EReal) := by
  unfold blockSum
  rw [← coe_sum]
  exact Finset.sum_congr rfl fun k _ => dense_entry m c x hx h t r k

/-! ## The accumulator, point by point -/

theorem acc_at_first (c : Dev nD) (t : Fin cfg0.N) (h0 : t.val % 5 = 0) (h1 : ¬t.val % 5 = 4) :
    (outsAt0 m c t.val t.isLt).2 = k0_pay2 (F := Ideal) (xblk m c t) (k0_pay1 (F := Ideal)) := by
  rw [outsAt0_A m c t h0 h1]; dsimp only
  exact sout0_A_0_eq (F := Ideal) c (grid0.coords t) (ms0_0 t) (hs0_0 t) (ms0_1 t) (hs0_1 t) scM0_0 (Memref.isWhole_whole _) ((hcond0_0 t).mpr h0) (fun h => h1 ((hcond0_1 t).mp h)) (iblk m c 0 t)

theorem acc_at_mid (c : Dev nD) (t : Fin cfg0.N) (h0 : ¬t.val % 5 = 0) (h1 : ¬t.val % 5 = 4) :
    (outsAt0 m c t.val t.isLt).2 = k0_pay2 (F := Ideal) (xblk m c t) (outsAt0 m c (t.val - 1) (Nat.lt_of_le_of_lt (Nat.sub_le _ _) t.isLt)).2 := by
  rw [outsAt0_B m c t h0 h1]; dsimp only
  exact sout0_B_0_eq (F := Ideal) c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2

theorem acc_at_last (c : Dev nD) (t : Fin cfg0.N) (h0 : ¬t.val % 5 = 0) (h1 : t.val % 5 = 4) :
    (outsAt0 m c t.val t.isLt).2 = k0_pay2 (F := Ideal) (xblk m c t) (outsAt0 m c (t.val - 1) (Nat.lt_of_le_of_lt (Nat.sub_le _ _) t.isLt)).2 := by
  rw [outsAt0_C m c t h0 h1]; dsimp only
  exact sout0_C_0_eq (F := Ideal) c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2

/-- At the last column block the output block is the accumulator as that point leaves it. -/
theorem out_at_last (c : Dev nD) (t : Fin cfg0.N) (h0 : ¬t.val % 5 = 0) (h1 : t.val % 5 = 4) :
    (outsAt0 m c t.val t.isLt).1 = (outsAt0 m c t.val t.isLt).2 := by
  rw [outsAt0_C m c t h0 h1]; dsimp only
  exact (out0_C_1_eq (F := Ideal) c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2).trans
    (sout0_C_0_eq (F := Ideal) c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2).symm

/-- THE INVARIANT: after point `n = 5 i + j` the accumulator holds, at `(r, 0)`, the real sum over the first `j + 1`
    column blocks of row `256 i + r`. -/
theorem acc_inv (c : Dev nD) (x : Sx.Idx → EReal) (hx : m ((c : Thread nD τ).loc main_arg0) = x)
    (h : ∀ i, ∃ a : ℝ, x i = (a : EReal) ∧ a < 1) :
    ∀ (n : ℕ) (hn : n < cfg0.N) (r : Fin 256),
      (outsAt0 m c n hn).2 (ix2 r 0) = ((partialRow x (256 * (n / 5) + r.val) (n % 5 + 1) : ℝ) : EReal) := by
  intro n
  induction n with
  | zero =>
    intro hn r
    rw [acc_at_first m c ⟨0, hn⟩ rfl (by show ¬(0 : ℕ) % 5 = 4; decide), upd_apply, zeros_apply, zero_add, lane_sum m c x hx h ⟨0, hn⟩ r]
    unfold partialRow; rw [Finset.sum_range_one]; rfl
  | succ n ih =>
    intro hn r
    by_cases h0 : (n + 1) % 5 = 0
    · have h1 : ¬(n + 1) % 5 = 4 := by omega
      rw [acc_at_first m c ⟨n + 1, hn⟩ h0 h1, upd_apply, zeros_apply, zero_add, lane_sum m c x hx h ⟨n + 1, hn⟩ r]
      show ((blockSum x (256 * ((n + 1) / 5) + r.val) ((n + 1) % 5) : ℝ) : EReal) = _
      rw [h0]; unfold partialRow; rw [Finset.sum_range_one]
    · have step : (outsAt0 m c (n + 1) hn).2 = k0_pay2 (F := Ideal) (xblk m c ⟨n + 1, hn⟩) (outsAt0 m c n (Nat.lt_of_succ_lt hn)).2 := by
        by_cases h1 : (n + 1) % 5 = 4
        · exact acc_at_last m c ⟨n + 1, hn⟩ h0 h1
        · exact acc_at_mid m c ⟨n + 1, hn⟩ h0 h1
      rw [step, upd_apply, ih (Nat.lt_of_succ_lt hn) r, lane_sum m c x hx h ⟨n + 1, hn⟩ r, ← EReal.coe_add]
      show ((partialRow x (256 * (n / 5) + r.val) (n % 5 + 1) + blockSum x (256 * ((n + 1) / 5) + r.val) ((n + 1) % 5) : ℝ) : EReal) = _
      have e1 : (n + 1) / 5 = n / 5 := by omega
      have e2 : n % 5 + 1 = (n + 1) % 5 := by omega
      rw [e1, e2]; unfold partialRow; rw [Finset.sum_range_succ]

/-! ## From the accumulator to the output array -/

/-- Row `a`'s five block sums are its dense row: five blocks of 6400 columns are the 32000 columns. -/
theorem partial_five (x : Sx.Idx → EReal) (a : ℕ) (ha : a < 2048) : partialRow x a 5 = denseRow x ⟨a, ha⟩ := by
  unfold partialRow denseRow
  rw [Finset.sum_range, sum_cols]
  refine Finset.sum_congr rfl fun j _ => ?_
  unfold blockSum
  refine Finset.sum_congr rfl fun k _ => ?_
  have hv : 6400 * j.val + k.val < 32000 := by have := j.isLt; have := k.isLt; omega
  unfold entry
  rw [dif_pos ⟨ha, hv⟩]; rfl

/-- What the output array ends holding: each row's dense sum, in its one column. -/
abbrev rowTotals (x : Sx.Idx → EReal) : Vec Ideal S2048x1 .f32 := fun i => ((denseRow x (i 0) : ℝ) : EReal)

/-- Only the last column block of a row block writes back, and what it writes is the accumulator after all five
    column blocks: rows `256 i …` of the row totals. -/
theorem flushed_eq (c : Dev nD) (x : Sx.Idx → EReal) (hx : m ((c : Thread nD τ).loc main_arg0) = x)
    (h : ∀ i, ∃ a : ℝ, x i = (a : EReal) ∧ a < 1) (t : Fin cfg0.N) (hf : (cfg0.win 1).flush t = true) :
    (dats m 0 c).flushed 1 t = ((cfg0.win 1).blk t).view.read (Elt Ideal) (rowTotals x) := by
  have h4 : t.val % 5 = 4 := (flush0_1 t).mp hf
  have h0 : ¬t.val % 5 = 0 := by omega
  have hN : t.val < 40 := lt_of_lt_of_eq t.isLt (show cfg0.N = 40 from N_0)
  obtain ⟨e0, e1⟩ := out_index t
  show (cfg0.win 1).cut (grid0.coords t) ((dats m 0 c).after 1 t) = _
  rw [after0_1, out_at_last m c t h0 h4]
  funext y
  have hr : (y 0).val < 256 := (y 0).isLt
  have hc : (y 1).val < 1 := (y 1).isLt
  rw [View.read_apply]
  have hy : (cfg0.win 1).xinj (grid0.coords t) y = ix2 (⟨(y 0).val, hr⟩ : Fin 256) (0 : Fin 1) := by
    funext a; apply Fin.ext
    match a with
    | ⟨0, _⟩ => rfl
    | ⟨1, _⟩ => show (y 1).val = 0; omega
  show (outsAt0 m c t.val t.isLt).2 ((cfg0.win 1).xinj (grid0.coords t) y) = _
  rw [hy, acc_inv m c x hx h t.val t.isLt ⟨(y 0).val, hr⟩]
  have ha : 256 * (t.val / 5) + (y 0).val < 2048 := by omega
  have hi : (((cfg0.win 1).blk t).view.emb y) 0 = (⟨256 * (t.val / 5) + (y 0).val, ha⟩ : Fin 2048) := by
    apply Fin.ext
    show win0_1.index t (0 : Fin 2) * 256 + 1 * (y 0).val = 256 * (t.val / 5) + (y 0).val
    rw [e0]; omega
  show ((partialRow x (256 * (t.val / 5) + (y 0).val) (t.val % 5 + 1) : ℝ) : EReal) = ((denseRow x ((((cfg0.win 1).blk t).view.emb y) 0) : ℝ) : EReal)
  rw [hi, h4, partial_five x _ ha]

/-- The output blocks of the flushing points tile the array: row `a` lies in the block of point `5 (a / 256) + 4`. -/
theorem covered (i : S2048x1.Idx) : ∃ t : Fin cfg0.N, (cfg0.win 1).flush t = true ∧ i ∈ ((cfg0.win 1).blk t).view.set := by
  have hi0 : (i 0).val < 2048 := (i 0).isLt
  have hi1 : (i 1).val < 1 := (i 1).isLt
  have hN : cfg0.N = 40 := N_0
  have ht : 5 * ((i 0).val / 256) + 4 < cfg0.N := by rw [hN]; omega
  refine ⟨⟨5 * ((i 0).val / 256) + 4, ht⟩, (flush0_1 _).mpr (by show (5 * ((i 0).val / 256) + 4) % 5 = 4; omega), ?_⟩
  obtain ⟨e0, e1⟩ := out_index ⟨5 * ((i 0).val / 256) + 4, ht⟩
  show i ∈ ((View.whole main_v0).slice (win0_1.rect ⟨5 * ((i 0).val / 256) + 4, ht⟩)).set
  rw [View.set_slice_whole, Rect.mem_set_unit]
  intro a
  match a with
  | ⟨0, _⟩ =>
    show win0_1.index ⟨5 * ((i 0).val / 256) + 4, ht⟩ (0 : Fin 2) * 256 ≤ (i 0).val ∧ (i 0).val < win0_1.index ⟨5 * ((i 0).val / 256) + 4, ht⟩ (0 : Fin 2) * 256 + 256
    rw [e0]; show (5 * ((i 0).val / 256) + 4) / 5 * 256 ≤ (i 0).val ∧ (i 0).val < (5 * ((i 0).val / 256) + 4) / 5 * 256 + 256; omega
  | ⟨1, _⟩ =>
    show win0_1.index ⟨5 * ((i 0).val / 256) + 4, ht⟩ (1 : Fin 2) * 1 ≤ (i 1).val ∧ (i 1).val < win0_1.index ⟨5 * ((i 0).val / 256) + 4, ht⟩ (1 : Fin 2) * 1 + 1
    rw [e1]; omega

end Blocks

/-- After the run the region's output array holds, in row `r`, the real `denseRow x r`: within a row block the
    accumulator after column block `j` holds the sum over the first `j + 1` column blocks of each row's lane sum of the dense
    term (zero plus the first at the first column block, the previous plus this one later), the last column block copies
    it to the output block, the output blocks tile the array by row blocks, and five blocks of 6400 columns are the
    32000 columns. Every entry being a real below 1, each dense term is a real and the sums are sums of reals. -/
theorem region_value (m : (ℓ : Loc nD τ sig) → Buf (Elt Ideal) ℓ) (c : Dev nD) (x : Sx.Idx → EReal)
    (hx : m ((c : Thread nD τ).loc main_arg0) = x) (h : ∀ i, ∃ a : ℝ, x i = (a : EReal) ∧ a < 1) :
    (dats m 0 c).arrAt 1 cfg0.N = fun i => ((denseRow x (i 0) : ℝ) : EReal) :=
  (dats m 0 c).arrAt_eq_of_cover 1 (rowTotals x) (fun t hf => flushed_eq m c x hx h t hf) covered

end Cert.KernelIdeal.RegionValue

end
-- ==== Proof.PreDecode.lean ====
/-
  What the stated precondition says of the two argument arrays, entry by entry.
-/
import proofs.«418686_j77841987273461_2_alg».proof.Pre_finite_inputs
import proofs.«418686_j77841987273461_2_alg».proof.Proof.Gen.Pre_finite_inputs
import proofs.«418686_j77841987273461_2_alg».proof.Proof.Spec
import Idealize.ShloMosaic.Lib.ReduceAll
import Idealize.ShloMosaic.Lib.StableHlo.Predicate

noncomputable section

namespace Cert.Focal

open Idealize.ShloMosaic Idealize.ShloMosaic.ValueIdx

/-- A scalar shape has exactly one index. -/
instance subsingleton_scalar_idx : Subsingleton Cert.Pre_finite_inputs.S_.Idx := ⟨fun a b => funext fun d => d.elim0⟩

/-- An extended real whose absolute value `max a (-a)` is strictly below `+∞` is neither infinity, so it is a real; if it
    is also strictly below 1, that real is below 1. The two bit patterns are `+∞` and `1`. -/
theorem real_lt_one_of_cmp (a : EReal)
    (h1 : Ideal.cmp .olt (max a (-a)) (Ideal.ofBits .f32 0x7F800000#32) = 1#1)
    (h2 : Ideal.cmp .olt a (Ideal.ofBits .f32 0x3F800000#32) = 1#1) : ∃ r : ℝ, a = (r : EReal) ∧ r < 1 := by
  have t : Ideal.ofBits .f32 0x7F800000#32 = ⊤ := by simp [Ideal.ofBits, Ideal.ieee]
  have o : Ideal.ofBits .f32 0x3F800000#32 = 1 := by simp [Ideal.ofBits, Ideal.ieee, -EReal.coe_mul]; norm_num
  rw [t] at h1; rw [o] at h2
  simp only [Ideal.cmp, StableHlo.Predicate.ofBool_eq_one_iff, decide_eq_true_eq] at h1 h2
  induction a using EReal.rec with
  | bot => simp at h1
  | top => simp at h1
  | coe r => exact ⟨r, rfl, by exact_mod_cast h2⟩

/-- A 32-bit word that, read as a signed number, is at least 0 and below 32000 has its sign bit clear, so read as an
    unsigned number it is the same value: below 32000. -/
theorem toNat_lt_of_cmpi (w : BitVec 32) (h0 : IntOp.cmpi .sge w 0#32 = 1#1) (h1 : IntOp.cmpi .slt w 32000#32 = 1#1) :
    w.toNat < 32000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have c : (32000#32 : BitVec 32).toInt = 32000 := by decide
  rw [z] at h0; rw [c] at h1
  have hw := w.isLt
  rw [BitVec.toInt_eq_toNat_cond] at h0 h1
  split at h0 <;> omega

/-- The precondition's four conjuncts, decoded: every entry of the streamed array is finite and below 1 (so a real below
    1), and every target is a signed word in `[0, 32000)` (so its unsigned value is below 32000). -/
theorem dom_of_pre [Cert.Pre_finite_inputs.Facts] (x : Sx.Idx → EReal) (tg : St.Idx → BitVec 32)
    (h : Cert.Pre_finite_inputs.fn (F := Ideal) x tg = fun _ => 1#1) : Dom x tg := by
  -- the predicate's one value, at the scalar's one index: a conjunction of four "for all entries" reductions
  have e := congrFun h ValueIdx.ix0
  dsimp only [Cert.Pre_finite_inputs.fn] at e
  simp only [andi, IntOp.andi_eq_one] at e
  obtain ⟨⟨⟨h1, h2⟩, h3⟩, h4⟩ := e
  -- a conjunction over all entries that is 1 is 1 at every entry
  have k1 := fun i => Host.reduce_andi_all _ _ _ _ _ h1 i
  have k2 := fun i => Host.reduce_andi_all _ _ _ _ _ h2 i
  have k3 := fun i => Host.reduce_andi_all _ _ _ _ _ h3 i
  have k4 := fun i => Host.reduce_andi_all _ _ _ _ _ h4 i
  -- entry by entry: |x i| < +∞ and x i < 1; 0 ≤ tg j and tg j < 32000 as signed words
  exact ⟨fun i => real_lt_one_of_cmp (x i) (k1 i) (k2 i), fun j => toNat_lt_of_cmpi (tg j) (k3 j) (k4 j)⟩

end Cert.Focal

end
-- ==== Proof.Math.lean ====
/-
  The identity between the reference's total and the kernel's total, over the reals.
-/
import proofs.«418686_j77841987273461_2_alg».proof.Proof.Spec
import Mathlib.Algebra.BigOperators.Group.Finset.Piecewise

noncomputable section

open scoped BigOperators

namespace Cert.Focal

open Idealize.ShloMosaic Idealize.ShloMosaic.ValueIdx

/-- At one-hot value 0 the focal loss is the dense term. -/
theorem refL_zero (q : ℝ) : refL 0 q = negK q := by
  unfold refL negK; ring

/-- At one-hot value 1 the focal loss is the target-branch term. -/
theorem refL_one (q : ℝ) : refL 1 q = posC q := by
  unfold refL posC; ring

/-- The dense term recomputed at a target is the dense term. -/
theorem negC_eq (q : ℝ) : negC q = negK q := by
  unfold negC negK; ring

open Classical in
/-- Summing over the values a finite sequence takes is summing over its first occurrences: each value is taken at a
    least position, and two first occurrences with one value coincide. -/
theorem sum_image_first {n : ℕ} {β : Type} [DecidableEq β] (c : Fin n → β) (F : β → ℝ) :
    ∑ v ∈ Finset.univ.image c, F v
      = ∑ t : Fin n, if (∀ s : Fin n, s < t → c s ≠ c t) then F (c t) else 0 := by
  have hinj : Set.InjOn c
      ((Finset.univ.filter fun t : Fin n => ∀ s : Fin n, s < t → c s ≠ c t : Finset (Fin n)) : Set (Fin n)) := by
    intro a ha b hb hab
    have ha' := (Finset.mem_filter.mp (Finset.mem_coe.mp ha)).2
    have hb' := (Finset.mem_filter.mp (Finset.mem_coe.mp hb)).2
    rcases lt_trichotomy a b with h | h | h
    · exact absurd hab (hb' a h)
    · exact h
    · exact absurd hab.symm (ha' b h)
  have himg : (Finset.univ.filter fun t : Fin n => ∀ s : Fin n, s < t → c s ≠ c t).image c
      = Finset.univ.image c := by
    apply Finset.Subset.antisymm
    · exact Finset.image_subset_image (Finset.filter_subset _ _)
    · intro v hv
      obtain ⟨t, -, rfl⟩ := Finset.mem_image.mp hv
      -- every position's value is already taken at a first occurrence: strong induction on the position
      induction t using WellFoundedLT.induction with
      | ind t ih =>
        by_cases hf : ∀ s : Fin n, s < t → c s ≠ c t
        · exact Finset.mem_image.mpr ⟨t, Finset.mem_filter.mpr ⟨Finset.mem_univ _, hf⟩, rfl⟩
        · obtain ⟨s, hs⟩ := not_forall.mp hf
          obtain ⟨hst, hcs⟩ := Classical.not_imp.mp hs
          rw [← not_not.mp hcs]
          exact ih s hst (Finset.mem_image.mpr ⟨s, Finset.mem_univ _, rfl⟩)
  rw [← himg, Finset.sum_image hinj, Finset.sum_filter]

/-- One row: the focal losses of the row are its dense terms, plus the corrections at its targets. -/
theorem row_eq (x : Sx.Idx → EReal) (tg : St.Idx → BitVec 32) (r : Fin 2048) :
    ∑ v : Fin 32000, refL (hot tg r v) (prob x r v) = denseRow x r + ∑ t : Fin 20, corr x tg r t := by
  classical
  -- the difference of the two branches, at a column
  set F : Fin 32000 → ℝ := fun v => posC (prob x r v) - negK (prob x r v) with hF
  -- split every entry into its dense term and, at a named column, the difference
  have h1 : ∀ v : Fin 32000, refL (hot tg r v) (prob x r v)
      = negK (prob x r v) + (if v ∈ Finset.univ.image (col tg r) then F v else 0) := by
    intro v
    by_cases hv : ∃ t, col tg r t = v
    · have hm : v ∈ Finset.univ.image (col tg r) := by
        obtain ⟨t, ht⟩ := hv
        exact Finset.mem_image.mpr ⟨t, Finset.mem_univ _, ht⟩
      rw [hot_of_mem hv, if_pos hm, refL_one, hF]; ring
    · have hm : v ∉ Finset.univ.image (col tg r) := by
        intro hm
        obtain ⟨t, -, ht⟩ := Finset.mem_image.mp hm
        exact hv ⟨t, ht⟩
      rw [hot_of_not_mem hv, if_neg hm, refL_zero, add_zero]
  -- the corrections are the differences at the first occurrences
  have h2 : ∀ t : Fin 20, corr x tg r t
      = if (∀ s : Fin 20, s < t → col tg r s ≠ col tg r t) then F (col tg r t) else 0 := by
    intro t
    by_cases hf : firstOcc tg r t
    · have hf' : ∀ s : Fin 20, s < t → col tg r s ≠ col tg r t := hf
      rw [corr_of_first hf, negC_eq, if_pos hf']
    · have hf' : ¬∀ s : Fin 20, s < t → col tg r s ≠ col tg r t := hf
      rw [corr_of_not_first hf, if_neg hf']
  unfold denseRow
  rw [Finset.sum_congr rfl (fun v _ => h1 v), Finset.sum_add_distrib, Finset.sum_ite_mem, Finset.univ_inter,
    sum_image_first (col tg r) F, Finset.sum_congr rfl (fun t _ => h2 t)]

/-- The reference's total is the kernel's: the dense branch everywhere, corrected once at each column a row's targets
    name — and the first occurrences of a row's targets are in bijection with those columns. -/
theorem total_eq (x : Sx.Idx → EReal) (tg : St.Idx → BitVec 32) : refTotal x tg = kerTotal x tg := by
  unfold refTotal kerTotal
  rw [← Finset.sum_add_distrib]
  exact Finset.sum_congr rfl (fun r _ => row_eq x tg r)

end Cert.Focal

end
-- ==== Proof.lean ====
/-
  The certificate's five claims.

  Both programs compute one real number from a 2048-by-32000 array `x` of probabilities and a 2048-by-20 array of
  target columns. The reference builds the one-hot array of the targets and sums the focal loss over every entry.
  The kernel sums the loss's "not a target" branch over EVERY entry (the region: per row, accumulated over five column
  blocks) and then adds, for each row and each target that is the first of its row to name its column, the difference
  of the two branches at that column. The two totals agree (`Cert.Focal.total_eq`). The claim is stated where the
  reference's own logarithm `log (1 - min 1 (max ε x))` is defined, `x < 1`, and where the targets are column indices,
  `0 ≤ target < 32000`; there every intermediate value is a real number.

  The three frames: the two kernel programs are one region followed by host operations, and their frame is the frame
  run of that shape over proof data that names what the accumulator and the output block hold at every grid point;
  the reference has no kernel, and its frame is its run with the result dropped.
-/
import proofs.«418686_j77841987273461_2_alg».proof.Defs
import proofs.«418686_j77841987273461_2_alg».proof.Proof.Gen.Kernel
import proofs.«418686_j77841987273461_2_alg».proof.Proof.Gen.KernelIdeal
import proofs.«418686_j77841987273461_2_alg».proof.Proof.Gen.ReferenceIdeal
import proofs.«418686_j77841987273461_2_alg».proof.Proof.Gen.Pre_finite_inputs
import proofs.«418686_j77841987273461_2_alg».proof.Proof.BitsFrame
import proofs.«418686_j77841987273461_2_alg».proof.Proof.IdealFrame
import proofs.«418686_j77841987273461_2_alg».proof.Proof.RefSide
import proofs.«418686_j77841987273461_2_alg».proof.Proof.TailRest
import proofs.«418686_j77841987273461_2_alg».proof.Proof.RegionValue
import proofs.«418686_j77841987273461_2_alg».proof.Proof.PreDecode
import proofs.«418686_j77841987273461_2_alg».proof.Proof.Math
import Idealize.ShloMosaic.Adequacy
import Idealize.ShloMosaic.Init

noncomputable section

namespace Cert.Proof

open Idealize.ShloMosaic Idealize.ShloMosaic.TcCoe Idealize.SL.Sem Cert.Focal

theorem frame_k : Cert.frame_Kernel := fun m ρ _ => Cert.Kernel.Fr.frame m ρ

theorem frame_ki : Cert.frame_KernelIdeal := fun m ρ _ => Cert.KernelIdeal.Fr.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

section Kernel

open Cert.KernelIdeal Cert.KernelIdeal.Gen Cert.KernelIdeal.Fr

variable (m : (ℓ : Loc Cert.KernelIdeal.nD Cert.KernelIdeal.τ Cert.KernelIdeal.sig) → Buf (Elt Ideal) ℓ)

/-- The kernel's result buffer after the run: from the region's exit (the streamed array and the targets as launched,
    the output array at the dense row sums) the later host operations leave the kernel's total. -/
theorem kernel_result (c : Dev nD)
    (h : Dom (m ((c : Thread nD τ).loc main_arg0)) (m ((c : Thread nD τ).loc main_arg1))) :
    endVal m c main_v159 = fun _ => ((kerTotal (m ((c : Thread nD τ).loc main_arg0)) (m ((c : Thread nD τ).loc main_arg1)) : ℝ) : EReal) := by
  unfold endVal Pipeline.afterTail₀
  refine (Cert.KernelIdeal.TailValue.tail_value _ (m ((c : Thread nD τ).loc main_arg0)) (m ((c : Thread nD τ).loc main_arg1))
    (fun r => denseRow (m ((c : Thread nD τ).loc main_arg0)) r) ?_ ?_ ?_ h).trans ?_
  · exact (Pipeline.withArrays_arr spec0 launch0.win.arr_inj c _ _ 0).trans
      (((dats m 0 c).arrAt_in 0 rfl _).trans ((A_eq m c 0).trans (V_main_arg0 m c)))
  · exact (Pipeline.withArrays_of_ne spec0 c (V0 m c) _ main_arg1 (by decide)).trans rfl
  · exact (Pipeline.withArrays_arr spec0 launch0.win.arr_inj c _ _ 1).trans
      (Cert.KernelIdeal.RegionValue.region_value m c _ rfl h.real)
  · rfl

end Kernel

/-- At the ideal instance, from memories agreeing on the arguments, both programs end with the same real in their result
    buffers: the kernel's total is the reference's. -/
theorem algebraic : Cert.algebraic_KernelIdeal_ReferenceIdeal := by
  intro m ρ m' ρ' hpre hagree
  have hdom : ∀ c : Dev Cert.KernelIdeal.nD, Dom (m ((c : Thread Cert.KernelIdeal.nD Cert.KernelIdeal.τ).loc Cert.KernelIdeal.main_arg0))
      (m ((c : Thread Cert.KernelIdeal.nD Cert.KernelIdeal.τ).loc Cert.KernelIdeal.main_arg1)) := fun c => dom_of_pre _ _ (hpre c)
  refine ⟨fun c _ => ((refTotal (m ((c : Thread Cert.KernelIdeal.nD Cert.KernelIdeal.τ).loc Cert.KernelIdeal.main_arg0))
      (m ((c : Thread Cert.KernelIdeal.nD Cert.KernelIdeal.τ).loc Cert.KernelIdeal.main_arg1)) : ℝ) : EReal), ?_, ?_⟩
  · refine (θ_run Cert.KernelIdeal.defs _ _).mono (fun r h c => ⟨?_, ?_, ?_⟩) (Cert.KernelIdeal.Fr.run_main m ρ)
    · rw [(h c).2 Cert.KernelIdeal.main_v159 (Pipeline.mem_restRefs_of Cert.KernelIdeal.main_v159 (by decide) (by decide)),
        kernel_result m c (hdom c)]
      exact funext fun _ => congrArg (fun a : ℝ => (a : EReal)) (total_eq _ _).symm
    · exact ((h c).1 0).trans (((Cert.KernelIdeal.Fr.dats m 0 c).arrAt_in 0 rfl _).trans
        ((Cert.KernelIdeal.Fr.A_eq m c 0).trans (Cert.KernelIdeal.Fr.V_main_arg0 m c)))
    · exact ((h c).2 Cert.KernelIdeal.main_arg1 (Pipeline.mem_restRefs_of Cert.KernelIdeal.main_arg1 (by decide) (by decide))).trans
        (Cert.KernelIdeal.Fr.endVal_arg1 m c)
  · refine (θ_run Cert.ReferenceIdeal.defs _ _).mono (fun r h c => ⟨?_, (h c).2.1, (h c).2.2⟩)
      (Cert.ReferenceIdeal.Value.run (F := Ideal) m' ρ')
    rw [(h c).1, Cert.ReferenceIdeal.Read.val_main_v50_eq, (hagree c).1, (hagree c).2]
    exact Cert.ReferenceIdeal.RefValue.ref_total _ _ (hdom c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
